-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v10) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_v13) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S128x64 .f32) (main_arg5 : FVec F S64x32 .f32) (main_arg6 : FVec F S64x32 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S128x64 .f32) (main_arg5 : FVec F S64x32 .f32) (main_arg6 : FVec F S64x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S64x64 : Shape := ⟨2, ![64, 64]⟩
abbrev S10000x64 : Shape := ⟨2, ![10000, 64]⟩
abbrev S400x10000 : Shape := ⟨2, ![400, 10000]⟩
abbrev S400x64 : Shape := ⟨2, ![400, 64]⟩
abbrev S10000x32 : Shape := ⟨2, ![10000, 32]⟩
abbrev S32x10000 : Shape := ⟨2, ![32, 10000]⟩
abbrev S400x32 : Shape := ⟨2, ![400, 32]⟩

abbrev nBuf : Space → Nat
  | .hbm => 22
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x64, .f32⟩
  | .hbm, ⟨5, _⟩ => ⟨S64x32, .f32⟩
  | .hbm, ⟨6, _⟩ => ⟨S64x32, .f32⟩
  | .hbm, ⟨7, _⟩ => ⟨S64x64, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S10000x32, .bf16⟩
  | .hbm, ⟨19, _⟩ => ⟨S32x10000, .f32⟩
  | .hbm, ⟨20, _⟩ => ⟨S32x10000, .bf16⟩
  | .hbm, ⟨21, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S10000x128, .f32⟩
  | .local _ .vmem, ⟨4, _⟩ => ⟨S128x64, .f32⟩
  | .local _ .vmem, ⟨5, _⟩ => ⟨S10000x64, .f32⟩
  | .local _ .vmem, ⟨6, _⟩ => ⟨S400x10000, .f32⟩
  | .local _ .vmem, ⟨7, _⟩ => ⟨S400x10000, .f32⟩
  | .local _ .vmem, ⟨8, _⟩ => ⟨S10000x64, .f32⟩
  | .local _ .vmem, ⟨9, _⟩ => ⟨S64x64, .f32⟩
  | .local _ .vmem, ⟨10, _⟩ => ⟨S400x64, .f32⟩
  | .local _ .vmem, ⟨11, _⟩ => ⟨S400x64, .f32⟩
  | .local _ .vmem, ⟨12, _⟩ => ⟨S400x10000, .f32⟩
  | .local _ .vmem, ⟨13, _⟩ => ⟨S400x10000, .f32⟩
  | .local _ .vmem, ⟨14, _⟩ => ⟨S10000x64, .f32⟩
  | .local _ .vmem, ⟨15, _⟩ => ⟨S64x64, .f32⟩
  | .local _ .vmem, ⟨16, _⟩ => ⟨S400x64, .f32⟩
  | .local _ .vmem, ⟨17, _⟩ => ⟨S400x64, .f32⟩
  | .local _ .vmem, ⟨18, _⟩ => ⟨S400x10000, .f32⟩
  | .local _ .vmem, ⟨19, _⟩ => ⟨S400x10000, .f32⟩
  | .local _ .vmem, ⟨20, _⟩ => ⟨S10000x64, .f32⟩
  | .local _ .vmem, ⟨21, _⟩ => ⟨S400x64, .f32⟩
  | .local _ .vmem, ⟨22, _⟩ => ⟨S400x64, .f32⟩
  | .local _ .vmem, ⟨23, _⟩ => ⟨S400x10000, .f32⟩
  | .local _ .vmem, ⟨24, _⟩ => ⟨S400x10000, .f32⟩
  | .local _ .vmem, ⟨25, _⟩ => ⟨S10000x64, .f32⟩
  | .local _ .vmem, ⟨26, _⟩ => ⟨S400x64, .f32⟩
  | .local _ .vmem, ⟨27, _⟩ => ⟨S400x64, .f32⟩
  | .local _ .vmem, ⟨28, _⟩ => ⟨S400x32, .bf16⟩
  | .local _ .vmem, ⟨29, _⟩ => ⟨S400x32, .bf16⟩
  | .local _ .vmem, ⟨30, _⟩ => ⟨S32x10000, .bf16⟩
  | .local _ .vmem, ⟨31, _⟩ => ⟨S400x10000, .f32⟩
  | .local _ .vmem, ⟨32, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg3_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg2_0 : Ref sig .tc := ⟨.vmem, 31, rfl⟩
abbrev cc6_stg2_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem3_0 : DmaSem sig := 10
abbrev cc2_sem3_1 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem3_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem2_0 : DmaSem sig := 31
abbrev cc6_sem2_1 : DmaSem sig := 32

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x32 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x10000 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x10000 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  concatenates_S64x32_S64x32_S64x64_d1 : Shape.Concatenates [S64x32, S64x32] S64x64 1
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S400x64_0_0 : ∀ a, (![0, 0] : Fin 2 → Nat) a + S400x64.size a ≤ S400x64.size a
  h_S400x64 : 0 < S400x64.numel
  slices_S10000x64_S10000x32_0_0 : S10000x64.Slices ![0, 0] S10000x32
  slices_S10000x64_S10000x32_0_32 : S10000x64.Slices ![0, 32] S10000x32
  bitsLt_bf16_f32 : FTy.bits .bf16 < FTy.bits .f32
  transposes_S10000x32_S32x10000_1_0 : S10000x32.Transposes [1, 0] S32x10000
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x32_S32x10000_S400x10000_1_0_0_1_n_n_wf : DotDims.WF S400x32 S32x10000 S400x10000 [1] [0] [0] [1] [] []
  hstage0_0 : ∀ j, (stage0_0 j).IsWhole
  hstage0_1 : ∀ j, (stage0_1 j).IsWhole
  hstage0_2 : ∀ j, (stage0_2 j).IsWhole
  hstage1_0 : ∀ j, (stage1_0 j).IsWhole
  hstage1_1 : ∀ j, (stage1_1 j).IsWhole
  hstage1_2 : ∀ j, (stage1_2 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S10000x64.size a
  hwx4_1 : ∀ i : grid4.Coords, EltTy.bits .f32 = 32 ∨ (Rect.block (s := S10000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x64.size a ≤ S10000x64.size a
  hwx4_2 : ∀ i : grid4.Coords, EltTy.bits .f32 = 32 ∨ (Rect.block (s := S10000x64) S400x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x64.size a ≤ S10000x64.size a
  hwx5_2 : ∀ i : grid5.Coords, EltTy.bits .f32 = 32 ∨ (Rect.block (s := S10000x64) S400x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x32.size a ≤ S10000x32.size a
  hwx6_0 : ∀ i : grid6.Coords, EltTy.bits .bf16 = 32 ∨ (Rect.block (s := S10000x32) S400x32.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x10000.size a ≤ S32x10000.size a
  hwx6_1 : ∀ i : grid6.Coords, EltTy.bits .bf16 = 32 ∨ (Rect.block (s := S32x10000) S32x10000.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x10000.size a ≤ S10000x10000.size a
  hwx6_2 : ∀ i : grid6.Coords, EltTy.bits .f32 = 32 ∨ (Rect.block (s := S10000x10000) S400x10000.size (cc6_transform_2 i) (hinb6_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x32_S32x10000_S400x10000_1_0_0_1_n_n : DotDims S400x32 S32x10000 S400x10000 where
  lhsContracting := [1]
  rhsContracting := [0]
  lhsNonContracting := [0]
  rhsNonContracting := [1]
  lhsBatch := []
  rhsBatch := []
  wf := dot_S400x32_S32x10000_S400x10000_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_arg1) false false (stage1_0 0) (sem1_0 0) (Memref.isWhole_whole _) (hstage1_0 0)

abbrev win1_1 : Pipeline.Window sig grid1 :=
  Pipeline.Window.whole (Memref.whole main_arg4) false false (stage1_1 0) (sem1_1 0) (Memref.isWhole_whole _) (hstage1_1 0)

abbrev win1_2 : Pipeline.Window sig grid1 :=
  Pipeline.Window.whole (Memref.whole main_v2) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S400x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v6) S400x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v11) S400x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S32x10000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S400x10000.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S32x10000 : Shape := ⟨2, ![32, 10000]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x64, .f32⟩
  | .hbm, ⟨5, _⟩ => ⟨S64x32, .f32⟩
  | .hbm, ⟨6, _⟩ => ⟨S64x32, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000x64, .f32⟩
  | .hbm, ⟨11, _⟩ => ⟨S10000x64, .f32⟩
  | .hbm, ⟨12, _⟩ => ⟨S10000x32, .f32⟩
  | .hbm, ⟨13, _⟩ => ⟨S10000x32, .f32⟩
  | .hbm, ⟨14, _⟩ => ⟨S10000x32, .f32⟩
  | .hbm, ⟨15, _⟩ => ⟨S10000x32, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S10000x64, .f32⟩
  | .hbm, ⟨20, _⟩ => ⟨S10000x64, .f32⟩
  | .hbm, ⟨21, _⟩ => ⟨S10000x32, .f32⟩
  | .hbm, ⟨22, _⟩ => ⟨S10000x32, .f32⟩
  | .hbm, ⟨23, _⟩ => ⟨S10000x32, .f32⟩
  | .hbm, ⟨24, _⟩ => ⟨S10000x32, .f32⟩
  | .hbm, ⟨25, _⟩ => ⟨S32x10000, .f32⟩
  | .hbm, ⟨26, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  transposes_S10000x32_S32x10000_1_0 : S10000x32.Transposes [1, 0] S32x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.Spec.lean ====
/-
  The mathematics both programs compute, stated once over the extended reals and free of any program text.

  A matrix is a function on the index type of a literal rank-2 shape.  `mm` is the matrix product as a plain
  finite sum of products (addition and multiplication on the extended reals are commutative and associative,
  so a finite sum needs no finiteness hypothesis), `relu` the pointwise maximum with zero, `tr` the transpose,
  `colsLo` / `colsHi` the left and right halves of a 64-column matrix, `wcat` two 32-column matrices set side
  by side.

  The graph encoder of one side is `head A X W1 W = A · (relu (A · (X · W1)) · W)`; the decoder is
  `recon μ ν = μ · νᵀ`.  The fused form multiplies once by `wcat W2 W3` and cuts the product in two afterwards;
  `colsLo_mm_mm_wcat` and `colsHi_mm_mm_wcat` say that each half is the product with the matching factor: a
  column of the side-by-side matrix is a column of one of its parts, so the two sums agree term by term.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns. -/
abbrev Mat (a b : Nat) : Type := (⟨2, ![a, b]⟩ : Shape).Idx → EReal

/-- The matrix product: entry `(p, q)` is the sum over `l` of `A (p, l) * B (l, q)`. -/
def mm {a k b : Nat} (A : Mat a k) (B : Mat k b) : Mat a b :=
  fun i => ∑ l : Fin k, A (ix2 (i 0) l) * B (ix2 l (i 1))

theorem mm_apply {a k b : Nat} (A : Mat a k) (B : Mat k b) (p : Fin a) (q : Fin b) :
    mm A B (ix2 p q) = ∑ l : Fin k, A (ix2 p l) * B (ix2 l q) := rfl

/-- The pointwise maximum with zero. -/
def relu {a b : Nat} (A : Mat a b) : Mat a b := fun i => max (A i) 0

theorem relu_apply {a b : Nat} (A : Mat a b) (i : (⟨2, ![a, b]⟩ : Shape).Idx) : relu A i = max (A i) 0 := rfl

/-- The transpose. -/
def tr {a b : Nat} (A : Mat a b) : Mat b a := fun i => A (ix2 (i 1) (i 0))

theorem tr_apply {a b : Nat} (A : Mat a b) (p : Fin b) (q : Fin a) : tr A (ix2 p q) = A (ix2 q p) := rfl

/-- Columns 0 to 31 of a 64-column matrix. -/
def colsLo {a : Nat} (A : Mat a 64) : Mat a 32 :=
  fun i => A (ix2 (i 0) ⟨(i 1).val, Nat.lt_trans (idx2_lt1 i) (by decide)⟩)

/-- Columns 32 to 63 of a 64-column matrix. -/
def colsHi {a : Nat} (A : Mat a 64) : Mat a 32 :=
  fun i => A (ix2 (i 0) ⟨32 + (i 1).val, by have := idx2_lt1 i; omega⟩)

theorem colsLo_apply {a : Nat} (A : Mat a 64) (p : Fin a) (q : Fin 32) :
    colsLo A (ix2 p q) = A (ix2 p ⟨q.val, Nat.lt_trans q.isLt (by decide)⟩) := rfl

theorem colsHi_apply {a : Nat} (A : Mat a 64) (p : Fin a) (q : Fin 32) :
    colsHi A (ix2 p q) = A (ix2 p ⟨32 + q.val, by have := q.isLt; omega⟩) := rfl

/-- Two 32-column matrices side by side: column `q` is the left one's for `q < 32`, the right one's column
    `q - 32` otherwise. -/
def wcat {a : Nat} (L R : Mat a 32) : Mat a 64 :=
  fun i => if h : (i 1).val < 32 then L (ix2 (i 0) ⟨(i 1).val, h⟩)
    else R (ix2 (i 0) ⟨(i 1).val - 32, by have := idx2_lt1 i; omega⟩)

theorem wcat_lo {a : Nat} (L R : Mat a 32) (p : Fin a) (q : Fin 32) :
    wcat L R (ix2 p ⟨q.val, Nat.lt_trans q.isLt (by decide)⟩) = L (ix2 p q) := by
  show (if h : q.val < 32 then L (ix2 p ⟨q.val, h⟩) else _) = _
  rw [dif_pos q.isLt]

theorem wcat_hi {a : Nat} (L R : Mat a 32) (p : Fin a) (q : Fin 32) :
    wcat L R (ix2 p ⟨32 + q.val, by have := q.isLt; omega⟩) = R (ix2 p q) := by
  show (if h : 32 + q.val < 32 then _ else R (ix2 p ⟨32 + q.val - 32, _⟩)) = _
  rw [dif_neg (by omega)]
  exact congrArg (fun z => R (ix2 p z)) (Fin.ext (by show 32 + q.val - 32 = q.val; omega))

/-- The left half of `A · (H · [L | R])` is `A · (H · L)`: term by term the same sums. -/
theorem colsLo_mm_mm_wcat {n a : Nat} (A : Mat n a) (H : Mat a 64) (L R : Mat 64 32) :
    colsLo (mm A (mm H (wcat L R))) = mm A (mm H L) := by
  funext i
  obtain ⟨p, q, rfl⟩ : ∃ (p : Fin n) (q : Fin 32), i = ix2 p q := ⟨i 0, i 1, eq_ix2 i⟩
  rw [colsLo_apply, mm_apply, mm_apply]
  refine Finset.sum_congr rfl fun l _ => ?_
  rw [mm_apply, mm_apply]
  refine congrArg (A (ix2 p l) * ·) (Finset.sum_congr rfl fun e _ => ?_)
  rw [wcat_lo]

/-- The right half of `A · (H · [L | R])` is `A · (H · R)`. -/
theorem colsHi_mm_mm_wcat {n a : Nat} (A : Mat n a) (H : Mat a 64) (L R : Mat 64 32) :
    colsHi (mm A (mm H (wcat L R))) = mm A (mm H R) := by
  funext i
  obtain ⟨p, q, rfl⟩ : ∃ (p : Fin n) (q : Fin 32), i = ix2 p q := ⟨i 0, i 1, eq_ix2 i⟩
  rw [colsHi_apply, mm_apply, mm_apply]
  refine Finset.sum_congr rfl fun l _ => ?_
  rw [mm_apply, mm_apply]
  refine congrArg (A (ix2 p l) * ·) (Finset.sum_congr rfl fun e _ => ?_)
  rw [wcat_hi]

/-- One side's encoder head: `A · (relu (A · (X · W1)) · W)`. -/
def head (A : Mat 10000 10000) (X : Mat 10000 128) (W1 : Mat 128 64) (W : Mat 64 32) : Mat 10000 32 :=
  mm A (mm (relu (mm A (mm X W1))) W)

/-- One side's fused second pass: `A · (relu (A · (X · W1)) · [W2 | W3])`, 64 columns. -/
def fused (A : Mat 10000 10000) (X : Mat 10000 128) (W1 : Mat 128 64) (W2 W3 : Mat 64 32) : Mat 10000 64 :=
  mm A (mm (relu (mm A (mm X W1))) (wcat W2 W3))

theorem colsLo_fused (A : Mat 10000 10000) (X : Mat 10000 128) (W1 : Mat 128 64) (W2 W3 : Mat 64 32) :
    colsLo (fused A X W1 W2 W3) = head A X W1 W2 := colsLo_mm_mm_wcat _ _ _ _

theorem colsHi_fused (A : Mat 10000 10000) (X : Mat 10000 128) (W1 : Mat 128 64) (W2 W3 : Mat 64 32) :
    colsHi (fused A X W1 W2 W3) = head A X W1 W3 := colsHi_mm_mm_wcat _ _ _ _

/-- The inner-product decoder: `μ · νᵀ`. -/
def recon (μ ν : Mat 10000 32) : Mat 10000 10000 := mm μ (tr ν)

/-- A contraction over one axis read as the matrix product: whenever a dimension record's operand indices at
    output index `(p, q)` and contraction coordinate `l` are `(p, l)` and `(l, q)`, its sum over the contraction
    index type is `mm`'s sum over `Fin k`. -/
theorem sum_contr_eq_mm {a k b : Nat} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : Mat a k) (B : Mat k b) (i : (⟨2, ![a, b]⟩ : Shape).Idx) :
    ∑ q : D.contr.Idx, A (D.lhsIdx i q) * B (D.rhsIdx i q) = mm A B i := by
  unfold mm
  rw [← Equiv.sum_comp (contrEquiv1 D k hr hs).symm]
  refine Finset.sum_congr rfl fun l _ => ?_
  have hk := contrEquiv1_symm_val D k hr hs l
  have el : D.lhsIdx i ((contrEquiv1 D k hr hs).symm l) = ix2 (i 0) l := funext fun x => Fin.ext (by
    match x with
    | ⟨0, _⟩ => exact hl0 _ _
    | ⟨1, _⟩ => exact (hl1 _ _).trans hk)
  have er : D.rhsIdx i ((contrEquiv1 D k hr hs).symm l) = ix2 l (i 1) := funext fun x => Fin.ext (by
    match x with
    | ⟨0, _⟩ => exact (hr0 _ _).trans hk
    | ⟨1, _⟩ => exact hr1 _ _)
  rw [el, er]
  rfl

end Cert.Spec

end
-- ==== Proof.HostOps.lean ====
/-
  The host layout operations are the specification's functions, over the extended reals.

  Each of the four operations is read entry by entry.  A cut of a 64-column matrix to 32 columns, started at column
  `o`, reads at `(p, q)` the operand at `(p, o + q)`: started at column 0 that is `colsLo`, started at column 32 it is
  `colsHi`.  The transpose with the two axes exchanged reads at `(p, q)` the operand at `(q, p)`: that is `tr`.  Two
  32-column matrices joined along the column axis read, at `(p, q)`, the first at `(p, q)` when `q < 32` and the second
  at `(p, q - 32)` otherwise: that is `wcat`, whose definition makes the same case distinction.
-/
import proofs.«141607_g53214644798189_cont_9to1_m_710_5_alg».proof.Proof.Spec
import Idealize.ShloMosaic.Lib.Pipeline.Value
import Idealize.ShloMosaic.Lib.ValueLayout
import Idealize.ShloMosaic.Lib.ValueIdx

noncomputable section

namespace Cert.Spec

open Idealize.ShloMosaic Idealize.ShloMosaic.ValueIdx

/-- The cut to columns 0 to 31 is `colsLo`: entry `(p, q)` of the cut is entry `(p, 0 + q)` of the operand. -/
theorem slice_lo (x : Mat 10000 64) (h : (⟨2, ![10000, 64]⟩ : Shape).Slices ![0, 0] ⟨2, ![10000, 32]⟩) :
    extractStridedSlice ⟨2, ![10000, 32]⟩ ![0, 0] x h = colsLo x := by
  funext i
  obtain ⟨p, q, rfl⟩ : ∃ (p : Fin 10000) (q : Fin 32), i = ix2 p q := ⟨i 0, i 1, eq_ix2 i⟩
  refine (slice2_axis1_apply 0 x h p q ⟨q.val, Nat.lt_trans q.isLt (by decide)⟩ (Nat.zero_add _).symm).trans ?_
  exact (colsLo_apply x p q).symm

/-- The cut to columns 32 to 63 is `colsHi`: entry `(p, q)` of the cut is entry `(p, 32 + q)` of the operand. -/
theorem slice_hi (x : Mat 10000 64) (h : (⟨2, ![10000, 64]⟩ : Shape).Slices ![0, 32] ⟨2, ![10000, 32]⟩) :
    extractStridedSlice ⟨2, ![10000, 32]⟩ ![0, 32] x h = colsHi x := by
  funext i
  obtain ⟨p, q, rfl⟩ : ∃ (p : Fin 10000) (q : Fin 32), i = ix2 p q := ⟨i 0, i 1, eq_ix2 i⟩
  refine (slice2_axis1_apply 32 x h p q ⟨32 + q.val, by have := q.isLt; omega⟩ rfl).trans ?_
  exact (colsHi_apply x p q).symm

/-- The transpose that exchanges the two axes is `tr`: entry `(p, q)` of the result is entry `(q, p)` of the operand. -/
theorem transpose_eq (x : Mat 10000 32) (h : (⟨2, ![10000, 32]⟩ : Shape).Transposes [1, 0] ⟨2, ![32, 10000]⟩) :
    transpose ⟨2, ![32, 10000]⟩ [1, 0] x h = tr x := by
  funext i
  obtain ⟨p, q, rfl⟩ : ∃ (p : Fin 32) (q : Fin 10000), i = ix2 p q := ⟨i 0, i 1, eq_ix2 i⟩
  refine (transpose_ix2_apply x h p q).trans ?_
  exact (tr_apply x p q).symm

/-- Two 32-column matrices joined along the column axis are `wcat`: a column below 32 falls in the first piece at the
    same position, a column from 32 on in the second piece, 32 less; `wcat` is defined by the same two cases. -/
theorem concat_eq (a b : Mat 64 32) (h : Shape.Concatenates [(⟨2, ![64, 32]⟩ : Shape), ⟨2, ![64, 32]⟩] ⟨2, ![64, 64]⟩ 1) :
    concatenate ⟨2, ![64, 64]⟩ 1 [⟨⟨2, ![64, 32]⟩, a⟩, ⟨⟨2, ![64, 32]⟩, b⟩] h = wcat a b := by
  funext i
  obtain ⟨p, q, rfl⟩ : ∃ (p : Fin 64) (q : Fin 64), i = ix2 p q := ⟨i 0, i 1, eq_ix2 i⟩
  by_cases hq : q.val < 32
  · -- the column lies in the first piece
    refine (concatenate_pair_apply_left (t := ⟨2, ![64, 64]⟩) (s₁ := ⟨2, ![64, 32]⟩) (s₂ := ⟨2, ![64, 32]⟩)
      (1 : Fin 2) a b h (ix2 p q) rfl (ix2 p (⟨q.val, hq⟩ : Fin 32)) (by
        intro c
        match c with
        | ⟨0, _⟩ => rfl
        | ⟨1, _⟩ => rfl)).trans ?_
    show _ = (if h' : q.val < 32 then a (ix2 p ⟨q.val, h'⟩) else _)
    rw [dif_pos hq]
  · -- the column lies in the second piece, 32 columns further left there
    refine (concatenate_pair_apply_right (t := ⟨2, ![64, 64]⟩) (s₁ := ⟨2, ![64, 32]⟩) (s₂ := ⟨2, ![64, 32]⟩)
      (1 : Fin 2) a b h (ix2 p q) rfl rfl (ix2 p (⟨q.val - 32, by have := q.isLt; omega⟩ : Fin 32)) (by
        intro c hc
        match c with
        | ⟨0, _⟩ => rfl
        | ⟨1, _⟩ => exact absurd rfl hc) (by
        show q.val - 32 + 32 = q.val
        omega)).trans ?_
    show _ = (if h' : q.val < 32 then _ else b (ix2 p ⟨q.val - 32, _⟩))
    rw [dif_neg hq]

end Cert.Spec

end
-- ==== Proof.Reg0.lean ====
/-
  The first side's feature product: the 10000 x 64 array the pass leaves is the matrix product of the 10000 x 128
  array it is given with the 128 x 64 weight array.

  The pass has no grid: it runs at one point, and each of its three blocks is a whole array (block index 0 on both
  axes).  At that point it takes the whole left factor and the whole right factor and writes the whole result:
  entry (y, j) of what it stores is the sum over k of left (y, k) * right (k, j), the accumulator it adds to being
  zero.  The one block is rows 0 to 9999 and columns 0 to 63, so every entry of the result is written, by that point,
  and the array after the pass is the product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product's operand indices -/

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value is the product of its two loaded blocks: the contraction added to a zero accumulator. -/
theorem pay_eq (x0 : FVec Ideal S10000x128 .f32) (x1 : FVec Ideal S128x64 .f32) :
    k0_pay1 (F := Ideal) x0 x1 = Spec.mm x0 x1 := by
  funext i
  unfold k0_pay1
  refine (Ideal.matmul_constant_zero_apply _ none x0 x1 i).trans ?_
  exact Spec.sum_contr_eq_mm dot_S10000x128_S128x64_S10000x64_1_0_0_1_n_n rfl rfl lhs_0 lhs_1 rhs_0 rhs_1 x0 x1 i

variable (V : (c : Dev nD) → (b : Ref sig .tc) → Buf (Elt Ideal) ((c : Thread nD τ).loc b))

theorem hz : (![0, 0] : Fin 2 → Nat) = fun _ => 0 := funext fun a => by fin_cases a <;> rfl

/-- The index maps at the pass's one point: every block is its whole array, at block index 0 on both axes. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  fun _ => ⟨rfl, rfl, rfl, rfl, rfl, rfl⟩

theorem N_eq : cfg0.N = 1 := rfl

theorem t_lt (t : Fin cfg0.N) : t.val < 1 := t.isLt

/-- The left factor's block at point `t`, at its literal type. -/
abbrev ablk (c : Dev nD) (t : Fin cfg0.N) : FVec Ideal S10000x128 .f32 := iblk0 V c 0 t
/-- The right factor's block at point `t`, at its literal type. -/
abbrev bblk (c : Dev nD) (t : Fin cfg0.N) : FVec Ideal S128x64 .f32 := iblk0 V c 1 t

/-- The left factor's block is the whole left factor. -/
theorem ablk_apply (c : Dev nD) (t : Fin cfg0.N) (y : Fin 10000) (l : Fin 128) :
    ablk V c t (ix2 y l) = V c main_arg0 (ix2 y l) := by
  obtain ⟨e0, e1, -⟩ := idx_facts t
  show V c main_arg0 (((cfg0.win 0).blk t).view.emb (ix2 y l)) = _
  refine congrArg (V c main_arg0) (funext fun a => Fin.ext ?_)
  match a with
  | ⟨0, _⟩ => show win0_0.index t (0 : Fin 2) * 10000 + 1 * y.val = y.val; omega
  | ⟨1, _⟩ => show win0_0.index t (1 : Fin 2) * 128 + 1 * l.val = l.val; omega

/-- The right factor's block is the whole right factor. -/
theorem bblk_apply (c : Dev nD) (t : Fin cfg0.N) (l : Fin 128) (q : Fin 64) :
    bblk V c t (ix2 l q) = V c main_arg4 (ix2 l q) := by
  obtain ⟨-, -, e2, e3, -⟩ := idx_facts t
  show V c main_arg4 (((cfg0.win 1).blk t).view.emb (ix2 l q)) = _
  refine congrArg (V c main_arg4) (funext fun a => Fin.ext ?_)
  match a with
  | ⟨0, _⟩ => show win0_1.index t (0 : Fin 2) * 128 + 1 * l.val = l.val; omega
  | ⟨1, _⟩ => show win0_1.index t (1 : Fin 2) * 64 + 1 * q.val = q.val; omega

/-- Entry `(y, q)` of the result's block sits at `(y, q)` of the result. -/
theorem oblk_emb (t : Fin cfg0.N) (y : Fin 10000) (q : Fin 64) :
    ((cfg0.win 2).blk t).view.emb (ix2 y q) = ix2 y q := by
  obtain ⟨-, -, -, -, e4, e5⟩ := idx_facts t
  refine funext fun a => Fin.ext ?_
  match a with
  | ⟨0, _⟩ => show win0_2.index t (0 : Fin 2) * 10000 + 1 * y.val = y.val; omega
  | ⟨1, _⟩ => show win0_2.index t (1 : Fin 2) * 64 + 1 * q.val = q.val; omega

/-- What point `t` writes back is its block of the product of the two arrays the pass is given. -/
theorem flushed_eq (c : Dev nD) (t : Fin cfg0.N) :
    (dat0 (F := Ideal) V c).flushed 2 t
      = ((cfg0.win 2).blk t).view.read (Elt Ideal) (Spec.mm (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x64) hz]
  rw [pay_eq]
  funext j
  obtain ⟨y, q, rfl⟩ : ∃ (y : Fin 10000) (q : Fin 64), j = ix2 y q := ⟨j 0, j 1, eq_ix2 j⟩
  show Spec.mm (ablk V c t) (bblk V c t) (ix2 y q)
    = Spec.mm (V c main_arg0) (V c main_arg4) (((cfg0.win 2).blk t).view.emb (ix2 y q))
  rw [oblk_emb, Spec.mm_apply, Spec.mm_apply]
  refine Finset.sum_congr rfl fun l _ => ?_
  rw [ablk_apply, bblk_apply]

/-- An index of the result is in point `t`'s block iff each coordinate is within the block's extent on its axis. -/
theorem mem_blk (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- Every index of the result is in the block of the pass's one point. -/
theorem cover (i : S10000x64.Idx) :
    ∃ t : Fin cfg0.N, (cfg0.win 2).flush t = true ∧ i ∈ ((cfg0.win 2).blk t).view.set := by
  have hi0 : (i 0).val < 10000 := idx2_lt0 i
  have hi1 : (i 1).val < 64 := idx2_lt1 i
  refine ⟨⟨0, by rw [N_eq]; omega⟩, flush0_2 _, ?_⟩
  rw [mem_blk]
  obtain ⟨-, -, -, -, e4, e5⟩ := idx_facts ⟨0, by rw [N_eq]; omega⟩
  intro a
  match a with
  | ⟨0, _⟩ => show win0_2.index _ (0 : Fin 2) * 10000 ≤ (i 0).val ∧ (i 0).val < win0_2.index _ (0 : Fin 2) * 10000 + 10000; rw [e4]; omega
  | ⟨1, _⟩ => show win0_2.index _ (1 : Fin 2) * 64 ≤ (i 1).val ∧ (i 1).val < win0_2.index _ (1 : Fin 2) * 64 + 64; rw [e5]; omega

/-- The array after the pass is the product of the two arrays the pass is given. -/
theorem final (c : Dev nD) :
    (dat0 (F := Ideal) V c).arrAt 2 cfg0.N = Spec.mm (V c main_arg0) (V c main_arg4) :=
  (dat0 (F := Ideal) V c).arrAt_eq_of_cover 2 (Spec.mm (V c main_arg0) (V c main_arg4))
    (fun t _ => flushed_eq V c t) (cover)

end Cert.KernelIdeal.Reg0

end
-- ==== Proof.Reg1.lean ====
/-
  The second side's feature product: the 10000 x 64 array the pass leaves is the matrix product of the 10000 x 128
  array it is given with the 128 x 64 weight array.

  The pass has no grid: it runs at one point, and each of its three blocks is a whole array (block index 0 on both
  axes).  At that point it takes the whole left factor and the whole right factor and writes the whole result:
  entry (y, j) of what it stores is the sum over k of left (y, k) * right (k, j), the accumulator it adds to being
  zero.  The one block is rows 0 to 9999 and columns 0 to 63, so every entry of the result is written, by that point,
  and the array after the pass is the product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product's operand indices -/

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value is the product of its two loaded blocks: the contraction added to a zero accumulator. -/
theorem pay_eq (x0 : FVec Ideal S10000x128 .f32) (x1 : FVec Ideal S128x64 .f32) :
    k1_pay1 (F := Ideal) x0 x1 = Spec.mm x0 x1 := by
  funext i
  unfold k1_pay1
  refine (Ideal.matmul_constant_zero_apply _ none x0 x1 i).trans ?_
  exact Spec.sum_contr_eq_mm dot_S10000x128_S128x64_S10000x64_1_0_0_1_n_n rfl rfl lhs_0 lhs_1 rhs_0 rhs_1 x0 x1 i

variable (V : (c : Dev nD) → (b : Ref sig .tc) → Buf (Elt Ideal) ((c : Thread nD τ).loc b))

theorem hz : (![0, 0] : Fin 2 → Nat) = fun _ => 0 := funext fun a => by fin_cases a <;> rfl

/-- The index maps at the pass's one point: every block is its whole array, at block index 0 on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  fun _ => ⟨rfl, rfl, rfl, rfl, rfl, rfl⟩

theorem N_eq : cfg1.N = 1 := rfl

theorem t_lt (t : Fin cfg1.N) : t.val < 1 := t.isLt

/-- The left factor's block at point `t`, at its literal type. -/
abbrev ablk (c : Dev nD) (t : Fin cfg1.N) : FVec Ideal S10000x128 .f32 := iblk1 V c 0 t
/-- The right factor's block at point `t`, at its literal type. -/
abbrev bblk (c : Dev nD) (t : Fin cfg1.N) : FVec Ideal S128x64 .f32 := iblk1 V c 1 t

/-- The left factor's block is the whole left factor. -/
theorem ablk_apply (c : Dev nD) (t : Fin cfg1.N) (y : Fin 10000) (l : Fin 128) :
    ablk V c t (ix2 y l) = V c main_arg1 (ix2 y l) := by
  obtain ⟨e0, e1, -⟩ := idx_facts t
  show V c main_arg1 (((cfg1.win 0).blk t).view.emb (ix2 y l)) = _
  refine congrArg (V c main_arg1) (funext fun a => Fin.ext ?_)
  match a with
  | ⟨0, _⟩ => show win1_0.index t (0 : Fin 2) * 10000 + 1 * y.val = y.val; omega
  | ⟨1, _⟩ => show win1_0.index t (1 : Fin 2) * 128 + 1 * l.val = l.val; omega

/-- The right factor's block is the whole right factor. -/
theorem bblk_apply (c : Dev nD) (t : Fin cfg1.N) (l : Fin 128) (q : Fin 64) :
    bblk V c t (ix2 l q) = V c main_arg4 (ix2 l q) := by
  obtain ⟨-, -, e2, e3, -⟩ := idx_facts t
  show V c main_arg4 (((cfg1.win 1).blk t).view.emb (ix2 l q)) = _
  refine congrArg (V c main_arg4) (funext fun a => Fin.ext ?_)
  match a with
  | ⟨0, _⟩ => show win1_1.index t (0 : Fin 2) * 128 + 1 * l.val = l.val; omega
  | ⟨1, _⟩ => show win1_1.index t (1 : Fin 2) * 64 + 1 * q.val = q.val; omega

/-- Entry `(y, q)` of the result's block sits at `(y, q)` of the result. -/
theorem oblk_emb (t : Fin cfg1.N) (y : Fin 10000) (q : Fin 64) :
    ((cfg1.win 2).blk t).view.emb (ix2 y q) = ix2 y q := by
  obtain ⟨-, -, -, -, e4, e5⟩ := idx_facts t
  refine funext fun a => Fin.ext ?_
  match a with
  | ⟨0, _⟩ => show win1_2.index t (0 : Fin 2) * 10000 + 1 * y.val = y.val; omega
  | ⟨1, _⟩ => show win1_2.index t (1 : Fin 2) * 64 + 1 * q.val = q.val; omega

/-- What point `t` writes back is its block of the product of the two arrays the pass is given. -/
theorem flushed_eq (c : Dev nD) (t : Fin cfg1.N) :
    (dat1 (F := Ideal) V c).flushed 2 t
      = ((cfg1.win 2).blk t).view.read (Elt Ideal) (Spec.mm (V c main_arg1) (V c main_arg4)) := by
  show (cfg1.win 2).cut (grid1.coords t) ((dat1 (F := Ideal) V c).after 2 t) = _
  rw [after1_2]
  unfold out1_2
  rw [View.canon_unit_zero hz]
  simp only [View.ld_unit_zero (S := S10000x128) hz, View.ld_unit_zero (S := S128x64) hz]
  rw [pay_eq]
  funext j
  obtain ⟨y, q, rfl⟩ : ∃ (y : Fin 10000) (q : Fin 64), j = ix2 y q := ⟨j 0, j 1, eq_ix2 j⟩
  show Spec.mm (ablk V c t) (bblk V c t) (ix2 y q)
    = Spec.mm (V c main_arg1) (V c main_arg4) (((cfg1.win 2).blk t).view.emb (ix2 y q))
  rw [oblk_emb, Spec.mm_apply, Spec.mm_apply]
  refine Finset.sum_congr rfl fun l _ => ?_
  rw [ablk_apply, bblk_apply]

/-- An index of the result is in point `t`'s block iff each coordinate is within the block's extent on its axis. -/
theorem mem_blk (t : Fin cfg1.N) (i : S10000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v2).slice (win1_2.rect t)).set ↔ _
  rw [View.set_slice_whole, Rect.mem_set_unit]
  exact Iff.rfl

/-- Every index of the result is in the block of the pass's one point. -/
theorem cover (i : S10000x64.Idx) :
    ∃ t : Fin cfg1.N, (cfg1.win 2).flush t = true ∧ i ∈ ((cfg1.win 2).blk t).view.set := by
  have hi0 : (i 0).val < 10000 := idx2_lt0 i
  have hi1 : (i 1).val < 64 := idx2_lt1 i
  refine ⟨⟨0, by rw [N_eq]; omega⟩, flush1_2 _, ?_⟩
  rw [mem_blk]
  obtain ⟨-, -, -, -, e4, e5⟩ := idx_facts ⟨0, by rw [N_eq]; omega⟩
  intro a
  match a with
  | ⟨0, _⟩ => show win1_2.index _ (0 : Fin 2) * 10000 ≤ (i 0).val ∧ (i 0).val < win1_2.index _ (0 : Fin 2) * 10000 + 10000; rw [e4]; omega
  | ⟨1, _⟩ => show win1_2.index _ (1 : Fin 2) * 64 ≤ (i 1).val ∧ (i 1).val < win1_2.index _ (1 : Fin 2) * 64 + 64; rw [e5]; omega

/-- The array after the pass is the product of the two arrays the pass is given. -/
theorem final (c : Dev nD) :
    (dat1 (F := Ideal) V c).arrAt 2 cfg1.N = Spec.mm (V c main_arg1) (V c main_arg4) :=
  (dat1 (F := Ideal) V c).arrAt_eq_of_cover 2 (Spec.mm (V c main_arg1) (V c main_arg4))
    (fun t _ => flushed_eq V c t) (cover)

end Cert.KernelIdeal.Reg1

end
-- ==== Proof.Reg2.lean ====
/-
  The first propagation pass of the first side: the 10000 x 64 array it leaves is
  relu (adjacency · given) · weights, where the adjacency is 10000 x 10000, the array it is given is 10000 x 64 and
  the weights are the 64 x 64 array of the two second-layer weights side by side.

  The pass runs over 25 points; point t takes rows 400 t to 400 t + 399 of the adjacency, the whole given array and
  the whole weights, and writes rows 400 t to 400 t + 399 of the result: entry (y, j) of its block is the sum over l
  of max (sum over k of adjacency (400 t + y, k) * given (k, l), 0) * weights (l, j).  The maximum is taken entry by
  entry, so a row of relu (adjacency · given) needs only that row of the adjacency.  Row r of the result therefore
  comes from point r / 400, and every row is written, so the array after the pass is the stated product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block products' operand indices -/

theorem lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem wlhs_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem wlhs_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q
theorem wrhs_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q
theorem wrhs_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl

/-- The first product, into the zero accumulator, is the matrix product of its operands. -/
theorem inner_eq (x0 : FVec Ideal S400x10000 .f32) (x1 : FVec Ideal S10000x64 .f32) :
    matmul dot_S400x10000_S10000x64_S400x64_1_0_0_1_n_n none x0 x1 (constant S400x64 .f32 0x00000000#32)
      = Spec.mm x0 x1 := by
  funext i
  refine (Ideal.matmul_constant_zero_apply _ none x0 x1 i).trans ?_
  exact Spec.sum_contr_eq_mm dot_S400x10000_S10000x64_S400x64_1_0_0_1_n_n rfl rfl lhs_0 lhs_1 rhs_0 rhs_1 x0 x1 i

/-- The entrywise maximum with the broadcast zero word is `relu`: the zero word is the number zero. -/
theorem max_zero_eq (x : FVec Ideal S400x64 .f32) :
    maximumf x (broadcast S400x64 (Scalar.ofBits (F := Ideal) .f32 0x00000000#32)) = Spec.relu x := by
  funext i
  rw [maximumf_apply, broadcast_apply, Spec.relu_apply]
  exact congrArg (max (x i)) Ideal.ofBits_zero_f32

/-- The body's stored value: the product of its first two loaded blocks, `relu` of it, times the third. -/
theorem pay_eq (x0 : FVec Ideal S400x10000 .f32) (x1 : FVec Ideal S10000x64 .f32) (x6 : FVec Ideal S64x64 .f32) :
    k2_pay1 (F := Ideal) x0 x1 x6 = Spec.mm (Spec.relu (Spec.mm x0 x1)) x6 := by
  funext i
  unfold k2_pay1
  rw [shapeCast_self, shapeCast_self, inner_eq, max_zero_eq]
  refine (Ideal.matmul_constant_zero_apply _ none (Spec.relu (Spec.mm x0 x1)) x6 i).trans ?_
  exact Spec.sum_contr_eq_mm dot_S400x64_S64x64_S400x64_1_0_0_1_n_n rfl rfl wlhs_0 wlhs_1 wrhs_0 wrhs_1
    (Spec.relu (Spec.mm x0 x1)) x6 i

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's blocks move down with the point, the
    given array's and the weights' blocks are the whole arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem N_eq : cfg2.N = 25 := rfl

theorem t_lt (t : Fin cfg2.N) : t.val < 25 := t.isLt

/-- The adjacency's block at point `t`, at its literal type. -/
abbrev ablk (c : Dev nD) (t : Fin cfg2.N) : FVec Ideal S400x10000 .f32 := iblk2 V c 0 t
/-- The given array's block at point `t`, at its literal type. -/
abbrev bblk (c : Dev nD) (t : Fin cfg2.N) : FVec Ideal S10000x64 .f32 := iblk2 V c 1 t
/-- The weights' block at point `t`, at its literal type. -/
abbrev wblk (c : Dev nD) (t : Fin cfg2.N) : FVec Ideal S64x64 .f32 := iblk2 V c 2 t

/-- Row `y` of the adjacency's block at point `t` is row `400 t + y` of the adjacency. -/
theorem ablk_apply (c : Dev nD) (t : Fin cfg2.N) (y : Fin 400) (l : Fin 10000) :
    ablk V c t (ix2 y l) = V c main_arg2 (ix2 (⟨400 * t.val + y.val, by have := t_lt t; have := y.isLt; omega⟩ : Fin 10000) l) := by
  obtain ⟨e0, e1, -⟩ := idx_facts t
  show V c main_arg2 (((cfg2.win 0).blk t).view.emb (ix2 y l)) = _
  refine congrArg (V c main_arg2) (funext fun a => Fin.ext ?_)
  match a with
  | ⟨0, _⟩ => show win2_0.index t (0 : Fin 2) * 400 + 1 * y.val = 400 * t.val + y.val; omega
  | ⟨1, _⟩ => show win2_0.index t (1 : Fin 2) * 10000 + 1 * l.val = l.val; omega

/-- The given array's block is the whole given array. -/
theorem bblk_apply (c : Dev nD) (t : Fin cfg2.N) (l : Fin 10000) (q : Fin 64) :
    bblk V c t (ix2 l q) = V c main_v1 (ix2 l q) := by
  obtain ⟨-, -, e2, e3, -⟩ := idx_facts t
  show V c main_v1 (((cfg2.win 1).blk t).view.emb (ix2 l q)) = _
  refine congrArg (V c main_v1) (funext fun a => Fin.ext ?_)
  match a with
  | ⟨0, _⟩ => show win2_1.index t (0 : Fin 2) * 10000 + 1 * l.val = l.val; omega
  | ⟨1, _⟩ => show win2_1.index t (1 : Fin 2) * 64 + 1 * q.val = q.val; omega

/-- The weights' block is the whole weights. -/
theorem wblk_apply (c : Dev nD) (t : Fin cfg2.N) (l : Fin 64) (q : Fin 64) :
    wblk V c t (ix2 l q) = V c main_v0 (ix2 l q) := by
  obtain ⟨-, -, -, -, e4, e5, -⟩ := idx_facts t
  show V c main_v0 (((cfg2.win 2).blk t).view.emb (ix2 l q)) = _
  refine congrArg (V c main_v0) (funext fun a => Fin.ext ?_)
  match a with
  | ⟨0, _⟩ => show win2_2.index t (0 : Fin 2) * 64 + 1 * l.val = l.val; omega
  | ⟨1, _⟩ => show win2_2.index t (1 : Fin 2) * 64 + 1 * q.val = q.val; omega

/-- Entry `(y, q)` of the result's block at point `t` sits at `(400 t + y, q)` of the result. -/
theorem oblk_emb (t : Fin cfg2.N) (y : Fin 400) (q : Fin 64) :
    ((cfg2.win 3).blk t).view.emb (ix2 y q)
      = ix2 (⟨400 * t.val + y.val, by have := t_lt t; have := y.isLt; omega⟩ : Fin 10000) q := by
  obtain ⟨-, -, -, -, -, -, e6, e7⟩ := idx_facts t
  refine funext fun a => Fin.ext ?_
  match a with
  | ⟨0, _⟩ => show win2_3.index t (0 : Fin 2) * 400 + 1 * y.val = 400 * t.val + y.val; omega
  | ⟨1, _⟩ => show win2_3.index t (1 : Fin 2) * 64 + 1 * q.val = q.val; omega

/-- What point `t` writes back is block `t` of `relu (adjacency · given) · weights`. -/
theorem flushed_eq (c : Dev nD) (t : Fin cfg2.N) :
    (dat2 (F := Ideal) V c).flushed 3 t
      = ((cfg2.win 3).blk t).view.read (Elt Ideal)
          (Spec.mm (Spec.relu (Spec.mm (V c main_arg2) (V c main_v1))) (V c main_v0)) := by
  show (cfg2.win 3).cut (grid2.coords t) ((dat2 (F := Ideal) V c).after 3 t) = _
  rw [after2_3]
  unfold out2_3
  rw [View.canon_unit_zero hz]
  simp only [View.ld_unit_zero (S := S400x10000) hz, View.ld_unit_zero (S := S10000x64) hz,
    View.ld_unit_zero (S := S64x64) hz]
  rw [pay_eq]
  funext j
  obtain ⟨y, q, rfl⟩ : ∃ (y : Fin 400) (q : Fin 64), j = ix2 y q := ⟨j 0, j 1, eq_ix2 j⟩
  show Spec.mm (Spec.relu (Spec.mm (ablk V c t) (bblk V c t))) (wblk V c t) (ix2 y q)
    = Spec.mm (Spec.relu (Spec.mm (V c main_arg2) (V c main_v1))) (V c main_v0)
        (((cfg2.win 3).blk t).view.emb (ix2 y q))
  rw [oblk_emb, Spec.mm_apply, Spec.mm_apply]
  refine Finset.sum_congr rfl fun l _ => ?_
  rw [wblk_apply, Spec.relu_apply, Spec.relu_apply, Spec.mm_apply, Spec.mm_apply]
  refine congrArg (fun z => max z 0 * V c main_v0 (ix2 l q)) (Finset.sum_congr rfl fun e _ => ?_)
  rw [ablk_apply, bblk_apply]

/-- An index of the result is in point `t`'s block iff its row is one of the block's 400 rows. -/
theorem mem_blk (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v3).slice (win2_3.rect t)).set ↔ _
  rw [View.set_slice_whole, Rect.mem_set_unit]
  exact Iff.rfl

/-- Every index of the result is in the block of the point its row falls in. -/
theorem cover (i : S10000x64.Idx) :
    ∃ t : Fin cfg2.N, (cfg2.win 3).flush t = true ∧ i ∈ ((cfg2.win 3).blk t).view.set := by
  have hi0 : (i 0).val < 10000 := idx2_lt0 i
  have hi1 : (i 1).val < 64 := idx2_lt1 i
  refine ⟨⟨(i 0).val / 400, by rw [N_eq]; omega⟩, flush2_3 _, ?_⟩
  rw [mem_blk]
  obtain ⟨-, -, -, -, -, -, e6, e7⟩ := idx_facts ⟨(i 0).val / 400, by rw [N_eq]; omega⟩
  intro a
  match a with
  | ⟨0, _⟩ => show win2_3.index _ (0 : Fin 2) * 400 ≤ (i 0).val ∧ (i 0).val < win2_3.index _ (0 : Fin 2) * 400 + 400; rw [e6]; show (i 0).val / 400 * 400 ≤ (i 0).val ∧ (i 0).val < (i 0).val / 400 * 400 + 400; omega
  | ⟨1, _⟩ => show win2_3.index _ (1 : Fin 2) * 64 ≤ (i 1).val ∧ (i 1).val < win2_3.index _ (1 : Fin 2) * 64 + 64; rw [e7]; omega

/-- The array after the pass is `relu (adjacency · given) · weights`. -/
theorem final (c : Dev nD) :
    (dat2 (F := Ideal) V c).arrAt 3 cfg2.N = Spec.mm (Spec.relu (Spec.mm (V c main_arg2) (V c main_v1))) (V c main_v0) :=
  (dat2 (F := Ideal) V c).arrAt_eq_of_cover 3 (Spec.mm (Spec.relu (Spec.mm (V c main_arg2) (V c main_v1))) (V c main_v0))
    (fun t _ => flushed_eq V c t) (cover)

end Cert.KernelIdeal.Reg2

end
-- ==== Proof.Reg3.lean ====
/-
  The first propagation pass of the second side: the 10000 x 64 array it leaves is
  relu (adjacency · given) · weights, where the adjacency is 10000 x 10000, the array it is given is 10000 x 64 and
  the weights are the 64 x 64 array of the two second-layer weights side by side.

  The pass runs over 25 points; point t takes rows 400 t to 400 t + 399 of the adjacency, the whole given array and
  the whole weights, and writes rows 400 t to 400 t + 399 of the result: entry (y, j) of its block is the sum over l
  of max (sum over k of adjacency (400 t + y, k) * given (k, l), 0) * weights (l, j).  The maximum is taken entry by
  entry, so a row of relu (adjacency · given) needs only that row of the adjacency.  Row r of the result therefore
  comes from point r / 400, and every row is written, so the array after the pass is the stated product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block products' operand indices -/

theorem lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem wlhs_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem wlhs_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q
theorem wrhs_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q
theorem wrhs_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl

/-- The first product, into the zero accumulator, is the matrix product of its operands. -/
theorem inner_eq (x0 : FVec Ideal S400x10000 .f32) (x1 : FVec Ideal S10000x64 .f32) :
    matmul dot_S400x10000_S10000x64_S400x64_1_0_0_1_n_n none x0 x1 (constant S400x64 .f32 0x00000000#32)
      = Spec.mm x0 x1 := by
  funext i
  refine (Ideal.matmul_constant_zero_apply _ none x0 x1 i).trans ?_
  exact Spec.sum_contr_eq_mm dot_S400x10000_S10000x64_S400x64_1_0_0_1_n_n rfl rfl lhs_0 lhs_1 rhs_0 rhs_1 x0 x1 i

/-- The entrywise maximum with the broadcast zero word is `relu`: the zero word is the number zero. -/
theorem max_zero_eq (x : FVec Ideal S400x64 .f32) :
    maximumf x (broadcast S400x64 (Scalar.ofBits (F := Ideal) .f32 0x00000000#32)) = Spec.relu x := by
  funext i
  rw [maximumf_apply, broadcast_apply, Spec.relu_apply]
  exact congrArg (max (x i)) Ideal.ofBits_zero_f32

/-- The body's stored value: the product of its first two loaded blocks, `relu` of it, times the third. -/
theorem pay_eq (x0 : FVec Ideal S400x10000 .f32) (x1 : FVec Ideal S10000x64 .f32) (x6 : FVec Ideal S64x64 .f32) :
    k3_pay1 (F := Ideal) x0 x1 x6 = Spec.mm (Spec.relu (Spec.mm x0 x1)) x6 := by
  funext i
  unfold k3_pay1
  rw [shapeCast_self, shapeCast_self, inner_eq, max_zero_eq]
  refine (Ideal.matmul_constant_zero_apply _ none (Spec.relu (Spec.mm x0 x1)) x6 i).trans ?_
  exact Spec.sum_contr_eq_mm dot_S400x64_S64x64_S400x64_1_0_0_1_n_n rfl rfl wlhs_0 wlhs_1 wrhs_0 wrhs_1
    (Spec.relu (Spec.mm x0 x1)) x6 i

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's blocks move down with the point, the
    given array's and the weights' blocks are the whole arrays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem N_eq : cfg3.N = 25 := rfl

theorem t_lt (t : Fin cfg3.N) : t.val < 25 := t.isLt

/-- The adjacency's block at point `t`, at its literal type. -/
abbrev ablk (c : Dev nD) (t : Fin cfg3.N) : FVec Ideal S400x10000 .f32 := iblk3 V c 0 t
/-- The given array's block at point `t`, at its literal type. -/
abbrev bblk (c : Dev nD) (t : Fin cfg3.N) : FVec Ideal S10000x64 .f32 := iblk3 V c 1 t
/-- The weights' block at point `t`, at its literal type. -/
abbrev wblk (c : Dev nD) (t : Fin cfg3.N) : FVec Ideal S64x64 .f32 := iblk3 V c 2 t

/-- Row `y` of the adjacency's block at point `t` is row `400 t + y` of the adjacency. -/
theorem ablk_apply (c : Dev nD) (t : Fin cfg3.N) (y : Fin 400) (l : Fin 10000) :
    ablk V c t (ix2 y l) = V c main_arg3 (ix2 (⟨400 * t.val + y.val, by have := t_lt t; have := y.isLt; omega⟩ : Fin 10000) l) := by
  obtain ⟨e0, e1, -⟩ := idx_facts t
  show V c main_arg3 (((cfg3.win 0).blk t).view.emb (ix2 y l)) = _
  refine congrArg (V c main_arg3) (funext fun a => Fin.ext ?_)
  match a with
  | ⟨0, _⟩ => show win3_0.index t (0 : Fin 2) * 400 + 1 * y.val = 400 * t.val + y.val; omega
  | ⟨1, _⟩ => show win3_0.index t (1 : Fin 2) * 10000 + 1 * l.val = l.val; omega

/-- The given array's block is the whole given array. -/
theorem bblk_apply (c : Dev nD) (t : Fin cfg3.N) (l : Fin 10000) (q : Fin 64) :
    bblk V c t (ix2 l q) = V c main_v2 (ix2 l q) := by
  obtain ⟨-, -, e2, e3, -⟩ := idx_facts t
  show V c main_v2 (((cfg3.win 1).blk t).view.emb (ix2 l q)) = _
  refine congrArg (V c main_v2) (funext fun a => Fin.ext ?_)
  match a with
  | ⟨0, _⟩ => show win3_1.index t (0 : Fin 2) * 10000 + 1 * l.val = l.val; omega
  | ⟨1, _⟩ => show win3_1.index t (1 : Fin 2) * 64 + 1 * q.val = q.val; omega

/-- The weights' block is the whole weights. -/
theorem wblk_apply (c : Dev nD) (t : Fin cfg3.N) (l : Fin 64) (q : Fin 64) :
    wblk V c t (ix2 l q) = V c main_v0 (ix2 l q) := by
  obtain ⟨-, -, -, -, e4, e5, -⟩ := idx_facts t
  show V c main_v0 (((cfg3.win 2).blk t).view.emb (ix2 l q)) = _
  refine congrArg (V c main_v0) (funext fun a => Fin.ext ?_)
  match a with
  | ⟨0, _⟩ => show win3_2.index t (0 : Fin 2) * 64 + 1 * l.val = l.val; omega
  | ⟨1, _⟩ => show win3_2.index t (1 : Fin 2) * 64 + 1 * q.val = q.val; omega

/-- Entry `(y, q)` of the result's block at point `t` sits at `(400 t + y, q)` of the result. -/
theorem oblk_emb (t : Fin cfg3.N) (y : Fin 400) (q : Fin 64) :
    ((cfg3.win 3).blk t).view.emb (ix2 y q)
      = ix2 (⟨400 * t.val + y.val, by have := t_lt t; have := y.isLt; omega⟩ : Fin 10000) q := by
  obtain ⟨-, -, -, -, -, -, e6, e7⟩ := idx_facts t
  refine funext fun a => Fin.ext ?_
  match a with
  | ⟨0, _⟩ => show win3_3.index t (0 : Fin 2) * 400 + 1 * y.val = 400 * t.val + y.val; omega
  | ⟨1, _⟩ => show win3_3.index t (1 : Fin 2) * 64 + 1 * q.val = q.val; omega

/-- What point `t` writes back is block `t` of `relu (adjacency · given) · weights`. -/
theorem flushed_eq (c : Dev nD) (t : Fin cfg3.N) :
    (dat3 (F := Ideal) V c).flushed 3 t
      = ((cfg3.win 3).blk t).view.read (Elt Ideal)
          (Spec.mm (Spec.relu (Spec.mm (V c main_arg3) (V c main_v2))) (V c main_v0)) := by
  show (cfg3.win 3).cut (grid3.coords t) ((dat3 (F := Ideal) V c).after 3 t) = _
  rw [after3_3]
  unfold out3_3
  rw [View.canon_unit_zero hz]
  simp only [View.ld_unit_zero (S := S400x10000) hz, View.ld_unit_zero (S := S10000x64) hz,
    View.ld_unit_zero (S := S64x64) hz]
  rw [pay_eq]
  funext j
  obtain ⟨y, q, rfl⟩ : ∃ (y : Fin 400) (q : Fin 64), j = ix2 y q := ⟨j 0, j 1, eq_ix2 j⟩
  show Spec.mm (Spec.relu (Spec.mm (ablk V c t) (bblk V c t))) (wblk V c t) (ix2 y q)
    = Spec.mm (Spec.relu (Spec.mm (V c main_arg3) (V c main_v2))) (V c main_v0)
        (((cfg3.win 3).blk t).view.emb (ix2 y q))
  rw [oblk_emb, Spec.mm_apply, Spec.mm_apply]
  refine Finset.sum_congr rfl fun l _ => ?_
  rw [wblk_apply, Spec.relu_apply, Spec.relu_apply, Spec.mm_apply, Spec.mm_apply]
  refine congrArg (fun z => max z 0 * V c main_v0 (ix2 l q)) (Finset.sum_congr rfl fun e _ => ?_)
  rw [ablk_apply, bblk_apply]

/-- An index of the result is in point `t`'s block iff its row is one of the block's 400 rows. -/
theorem mem_blk (t : Fin cfg3.N) (i : S10000x64.Idx) :
    i ∈ ((cfg3.win 3).blk t).view.set ↔ ∀ a : Fin 2, win3_3.index t a * S400x64.size a ≤ (i a).val ∧ (i a).val < win3_3.index t a * S400x64.size a + S400x64.size a := by
  show i ∈ ((View.whole main_v4).slice (win3_3.rect t)).set ↔ _
  rw [View.set_slice_whole, Rect.mem_set_unit]
  exact Iff.rfl

/-- Every index of the result is in the block of the point its row falls in. -/
theorem cover (i : S10000x64.Idx) :
    ∃ t : Fin cfg3.N, (cfg3.win 3).flush t = true ∧ i ∈ ((cfg3.win 3).blk t).view.set := by
  have hi0 : (i 0).val < 10000 := idx2_lt0 i
  have hi1 : (i 1).val < 64 := idx2_lt1 i
  refine ⟨⟨(i 0).val / 400, by rw [N_eq]; omega⟩, flush3_3 _, ?_⟩
  rw [mem_blk]
  obtain ⟨-, -, -, -, -, -, e6, e7⟩ := idx_facts ⟨(i 0).val / 400, by rw [N_eq]; omega⟩
  intro a
  match a with
  | ⟨0, _⟩ => show win3_3.index _ (0 : Fin 2) * 400 ≤ (i 0).val ∧ (i 0).val < win3_3.index _ (0 : Fin 2) * 400 + 400; rw [e6]; show (i 0).val / 400 * 400 ≤ (i 0).val ∧ (i 0).val < (i 0).val / 400 * 400 + 400; omega
  | ⟨1, _⟩ => show win3_3.index _ (1 : Fin 2) * 64 ≤ (i 1).val ∧ (i 1).val < win3_3.index _ (1 : Fin 2) * 64 + 64; rw [e7]; omega

/-- The array after the pass is `relu (adjacency · given) · weights`. -/
theorem final (c : Dev nD) :
    (dat3 (F := Ideal) V c).arrAt 3 cfg3.N = Spec.mm (Spec.relu (Spec.mm (V c main_arg3) (V c main_v2))) (V c main_v0) :=
  (dat3 (F := Ideal) V c).arrAt_eq_of_cover 3 (Spec.mm (Spec.relu (Spec.mm (V c main_arg3) (V c main_v2))) (V c main_v0))
    (fun t _ => flushed_eq V c t) (cover)

end Cert.KernelIdeal.Reg3

end
-- ==== Proof.Reg4.lean ====
/-
  The second propagation pass of the first side: the 10000 x 64 array it leaves is the matrix product of the
  adjacency (10000 x 10000) with the 10000 x 64 array it is given.

  The pass runs over 25 points; point t takes rows 400 t to 400 t + 399 of the adjacency, the whole right factor, and
  writes rows 400 t to 400 t + 399 of the result: entry (y, j) of its block is the sum over k of
  adjacency (400 t + y, k) * right (k, j).  Row r of the result therefore comes from point r / 400, and every row is
  written, so the array after the pass is the product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product's operand indices -/

theorem lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The body's stored value is the product of its two loaded blocks. -/
theorem pay_eq (x0 : FVec Ideal S400x10000 .f32) (x1 : FVec Ideal S10000x64 .f32) :
    k4_pay1 (F := Ideal) x0 x1 = Spec.mm x0 x1 := by
  funext i
  unfold k4_pay1
  rw [shapeCast_self]
  refine (Ideal.matmul_constant_zero_apply _ none x0 x1 i).trans ?_
  exact Spec.sum_contr_eq_mm dot_S400x10000_S10000x64_S400x64_1_0_0_1_n_n rfl rfl lhs_0 lhs_1 rhs_0 rhs_1 x0 x1 i

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's blocks move down with the point, the
    right factor's block is the whole array. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem N_eq : cfg4.N = 25 := rfl

theorem t_lt (t : Fin cfg4.N) : t.val < 25 := t.isLt

/-- The adjacency's block at point `t`, at its literal type. -/
abbrev ablk (c : Dev nD) (t : Fin cfg4.N) : FVec Ideal S400x10000 .f32 := iblk4 V c 0 t
/-- The right factor's block at point `t`, at its literal type. -/
abbrev bblk (c : Dev nD) (t : Fin cfg4.N) : FVec Ideal S10000x64 .f32 := iblk4 V c 1 t

/-- Row `y` of the adjacency's block at point `t` is row `400 t + y` of the adjacency. -/
theorem ablk_apply (c : Dev nD) (t : Fin cfg4.N) (y : Fin 400) (l : Fin 10000) :
    ablk V c t (ix2 y l) = V c main_arg2 (ix2 (⟨400 * t.val + y.val, by have := t_lt t; have := y.isLt; omega⟩ : Fin 10000) l) := by
  obtain ⟨e0, e1, -⟩ := idx_facts t
  show V c main_arg2 (((cfg4.win 0).blk t).view.emb (ix2 y l)) = _
  refine congrArg (V c main_arg2) (funext fun a => Fin.ext ?_)
  match a with
  | ⟨0, _⟩ => show win4_0.index t (0 : Fin 2) * 400 + 1 * y.val = 400 * t.val + y.val; omega
  | ⟨1, _⟩ => show win4_0.index t (1 : Fin 2) * 10000 + 1 * l.val = l.val; omega

/-- The right factor's block is the whole right factor. -/
theorem bblk_apply (c : Dev nD) (t : Fin cfg4.N) (l : Fin 10000) (q : Fin 64) :
    bblk V c t (ix2 l q) = V c main_v3 (ix2 l q) := by
  obtain ⟨-, -, e2, e3, -⟩ := idx_facts t
  show V c main_v3 (((cfg4.win 1).blk t).view.emb (ix2 l q)) = _
  refine congrArg (V c main_v3) (funext fun a => Fin.ext ?_)
  match a with
  | ⟨0, _⟩ => show win4_1.index t (0 : Fin 2) * 10000 + 1 * l.val = l.val; omega
  | ⟨1, _⟩ => show win4_1.index t (1 : Fin 2) * 64 + 1 * q.val = q.val; omega

/-- Entry `(y, q)` of the result's block at point `t` sits at `(400 t + y, q)` of the result. -/
theorem oblk_emb (t : Fin cfg4.N) (y : Fin 400) (q : Fin 64) :
    ((cfg4.win 2).blk t).view.emb (ix2 y q)
      = ix2 (⟨400 * t.val + y.val, by have := t_lt t; have := y.isLt; omega⟩ : Fin 10000) q := by
  obtain ⟨-, -, -, -, e4, e5⟩ := idx_facts t
  refine funext fun a => Fin.ext ?_
  match a with
  | ⟨0, _⟩ => show win4_2.index t (0 : Fin 2) * 400 + 1 * y.val = 400 * t.val + y.val; omega
  | ⟨1, _⟩ => show win4_2.index t (1 : Fin 2) * 64 + 1 * q.val = q.val; omega

/-- What point `t` writes back is block `t` of the product of the two arrays the pass is given. -/
theorem flushed_eq (c : Dev nD) (t : Fin cfg4.N) :
    (dat4 (F := Ideal) V c).flushed 2 t
      = ((cfg4.win 2).blk t).view.read (Elt Ideal) (Spec.mm (V c main_arg2) (V c main_v3)) := by
  show (cfg4.win 2).cut (grid4.coords t) ((dat4 (F := Ideal) V c).after 2 t) = _
  rw [after4_2]
  unfold out4_2
  rw [View.canon_unit_zero hz]
  simp only [View.ld_unit_zero (S := S400x10000) hz, View.ld_unit_zero (S := S10000x64) hz]
  rw [pay_eq]
  funext j
  obtain ⟨y, q, rfl⟩ : ∃ (y : Fin 400) (q : Fin 64), j = ix2 y q := ⟨j 0, j 1, eq_ix2 j⟩
  show Spec.mm (ablk V c t) (bblk V c t) (ix2 y q)
    = Spec.mm (V c main_arg2) (V c main_v3) (((cfg4.win 2).blk t).view.emb (ix2 y q))
  rw [oblk_emb, Spec.mm_apply, Spec.mm_apply]
  refine Finset.sum_congr rfl fun l _ => ?_
  rw [ablk_apply, bblk_apply]

/-- An index of the result is in point `t`'s block iff its row is one of the block's 400 rows. -/
theorem mem_blk (t : Fin cfg4.N) (i : S10000x64.Idx) :
    i ∈ ((cfg4.win 2).blk t).view.set ↔ ∀ a : Fin 2, win4_2.index t a * S400x64.size a ≤ (i a).val ∧ (i a).val < win4_2.index t a * S400x64.size a + S400x64.size a := by
  show i ∈ ((View.whole main_v5).slice (win4_2.rect t)).set ↔ _
  rw [View.set_slice_whole, Rect.mem_set_unit]
  exact Iff.rfl

/-- Every index of the result is in the block of the point its row falls in. -/
theorem cover (i : S10000x64.Idx) :
    ∃ t : Fin cfg4.N, (cfg4.win 2).flush t = true ∧ i ∈ ((cfg4.win 2).blk t).view.set := by
  have hi0 : (i 0).val < 10000 := idx2_lt0 i
  have hi1 : (i 1).val < 64 := idx2_lt1 i
  refine ⟨⟨(i 0).val / 400, by rw [N_eq]; omega⟩, flush4_2 _, ?_⟩
  rw [mem_blk]
  obtain ⟨-, -, -, -, e4, e5⟩ := idx_facts ⟨(i 0).val / 400, by rw [N_eq]; omega⟩
  intro a
  match a with
  | ⟨0, _⟩ => show win4_2.index _ (0 : Fin 2) * 400 ≤ (i 0).val ∧ (i 0).val < win4_2.index _ (0 : Fin 2) * 400 + 400; rw [e4]; show (i 0).val / 400 * 400 ≤ (i 0).val ∧ (i 0).val < (i 0).val / 400 * 400 + 400; omega
  | ⟨1, _⟩ => show win4_2.index _ (1 : Fin 2) * 64 ≤ (i 1).val ∧ (i 1).val < win4_2.index _ (1 : Fin 2) * 64 + 64; rw [e5]; omega

/-- The array after the pass is the product of the adjacency with the array the pass is given. -/
theorem final (c : Dev nD) :
    (dat4 (F := Ideal) V c).arrAt 2 cfg4.N = Spec.mm (V c main_arg2) (V c main_v3) :=
  (dat4 (F := Ideal) V c).arrAt_eq_of_cover 2 (Spec.mm (V c main_arg2) (V c main_v3))
    (fun t _ => flushed_eq V c t) (cover)

end Cert.KernelIdeal.Reg4

end
-- ==== Proof.Reg5.lean ====
/-
  The second propagation pass of the second side: the 10000 x 64 array it leaves is the matrix product of the
  adjacency (10000 x 10000) with the 10000 x 64 array it is given.

  The pass runs over 25 points; point t takes rows 400 t to 400 t + 399 of the adjacency, the whole right factor, and
  writes rows 400 t to 400 t + 399 of the result: entry (y, j) of its block is the sum over k of
  adjacency (400 t + y, k) * right (k, j).  Row r of the result therefore comes from point r / 400, and every row is
  written, so the array after the pass is the product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product's operand indices -/

theorem lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The body's stored value is the product of its two loaded blocks. -/
theorem pay_eq (x0 : FVec Ideal S400x10000 .f32) (x1 : FVec Ideal S10000x64 .f32) :
    k5_pay1 (F := Ideal) x0 x1 = Spec.mm x0 x1 := by
  funext i
  unfold k5_pay1
  rw [shapeCast_self]
  refine (Ideal.matmul_constant_zero_apply _ none x0 x1 i).trans ?_
  exact Spec.sum_contr_eq_mm dot_S400x10000_S10000x64_S400x64_1_0_0_1_n_n rfl rfl lhs_0 lhs_1 rhs_0 rhs_1 x0 x1 i

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency's and the result's blocks move down with the point, the
    right factor's block is the whole array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem N_eq : cfg5.N = 25 := rfl

theorem t_lt (t : Fin cfg5.N) : t.val < 25 := t.isLt

/-- The adjacency's block at point `t`, at its literal type. -/
abbrev ablk (c : Dev nD) (t : Fin cfg5.N) : FVec Ideal S400x10000 .f32 := iblk5 V c 0 t
/-- The right factor's block at point `t`, at its literal type. -/
abbrev bblk (c : Dev nD) (t : Fin cfg5.N) : FVec Ideal S10000x64 .f32 := iblk5 V c 1 t

/-- Row `y` of the adjacency's block at point `t` is row `400 t + y` of the adjacency. -/
theorem ablk_apply (c : Dev nD) (t : Fin cfg5.N) (y : Fin 400) (l : Fin 10000) :
    ablk V c t (ix2 y l) = V c main_arg3 (ix2 (⟨400 * t.val + y.val, by have := t_lt t; have := y.isLt; omega⟩ : Fin 10000) l) := by
  obtain ⟨e0, e1, -⟩ := idx_facts t
  show V c main_arg3 (((cfg5.win 0).blk t).view.emb (ix2 y l)) = _
  refine congrArg (V c main_arg3) (funext fun a => Fin.ext ?_)
  match a with
  | ⟨0, _⟩ => show win5_0.index t (0 : Fin 2) * 400 + 1 * y.val = 400 * t.val + y.val; omega
  | ⟨1, _⟩ => show win5_0.index t (1 : Fin 2) * 10000 + 1 * l.val = l.val; omega

/-- The right factor's block is the whole right factor. -/
theorem bblk_apply (c : Dev nD) (t : Fin cfg5.N) (l : Fin 10000) (q : Fin 64) :
    bblk V c t (ix2 l q) = V c main_v4 (ix2 l q) := by
  obtain ⟨-, -, e2, e3, -⟩ := idx_facts t
  show V c main_v4 (((cfg5.win 1).blk t).view.emb (ix2 l q)) = _
  refine congrArg (V c main_v4) (funext fun a => Fin.ext ?_)
  match a with
  | ⟨0, _⟩ => show win5_1.index t (0 : Fin 2) * 10000 + 1 * l.val = l.val; omega
  | ⟨1, _⟩ => show win5_1.index t (1 : Fin 2) * 64 + 1 * q.val = q.val; omega

/-- Entry `(y, q)` of the result's block at point `t` sits at `(400 t + y, q)` of the result. -/
theorem oblk_emb (t : Fin cfg5.N) (y : Fin 400) (q : Fin 64) :
    ((cfg5.win 2).blk t).view.emb (ix2 y q)
      = ix2 (⟨400 * t.val + y.val, by have := t_lt t; have := y.isLt; omega⟩ : Fin 10000) q := by
  obtain ⟨-, -, -, -, e4, e5⟩ := idx_facts t
  refine funext fun a => Fin.ext ?_
  match a with
  | ⟨0, _⟩ => show win5_2.index t (0 : Fin 2) * 400 + 1 * y.val = 400 * t.val + y.val; omega
  | ⟨1, _⟩ => show win5_2.index t (1 : Fin 2) * 64 + 1 * q.val = q.val; omega

/-- What point `t` writes back is block `t` of the product of the two arrays the pass is given. -/
theorem flushed_eq (c : Dev nD) (t : Fin cfg5.N) :
    (dat5 (F := Ideal) V c).flushed 2 t
      = ((cfg5.win 2).blk t).view.read (Elt Ideal) (Spec.mm (V c main_arg3) (V c main_v4)) := by
  show (cfg5.win 2).cut (grid5.coords t) ((dat5 (F := Ideal) V c).after 2 t) = _
  rw [after5_2]
  unfold out5_2
  rw [View.canon_unit_zero hz]
  simp only [View.ld_unit_zero (S := S400x10000) hz, View.ld_unit_zero (S := S10000x64) hz]
  rw [pay_eq]
  funext j
  obtain ⟨y, q, rfl⟩ : ∃ (y : Fin 400) (q : Fin 64), j = ix2 y q := ⟨j 0, j 1, eq_ix2 j⟩
  show Spec.mm (ablk V c t) (bblk V c t) (ix2 y q)
    = Spec.mm (V c main_arg3) (V c main_v4) (((cfg5.win 2).blk t).view.emb (ix2 y q))
  rw [oblk_emb, Spec.mm_apply, Spec.mm_apply]
  refine Finset.sum_congr rfl fun l _ => ?_
  rw [ablk_apply, bblk_apply]

/-- An index of the result is in point `t`'s block iff its row is one of the block's 400 rows. -/
theorem mem_blk (t : Fin cfg5.N) (i : S10000x64.Idx) :
    i ∈ ((cfg5.win 2).blk t).view.set ↔ ∀ a : Fin 2, win5_2.index t a * S400x64.size a ≤ (i a).val ∧ (i a).val < win5_2.index t a * S400x64.size a + S400x64.size a := by
  show i ∈ ((View.whole main_v6).slice (win5_2.rect t)).set ↔ _
  rw [View.set_slice_whole, Rect.mem_set_unit]
  exact Iff.rfl

/-- Every index of the result is in the block of the point its row falls in. -/
theorem cover (i : S10000x64.Idx) :
    ∃ t : Fin cfg5.N, (cfg5.win 2).flush t = true ∧ i ∈ ((cfg5.win 2).blk t).view.set := by
  have hi0 : (i 0).val < 10000 := idx2_lt0 i
  have hi1 : (i 1).val < 64 := idx2_lt1 i
  refine ⟨⟨(i 0).val / 400, by rw [N_eq]; omega⟩, flush5_2 _, ?_⟩
  rw [mem_blk]
  obtain ⟨-, -, -, -, e4, e5⟩ := idx_facts ⟨(i 0).val / 400, by rw [N_eq]; omega⟩
  intro a
  match a with
  | ⟨0, _⟩ => show win5_2.index _ (0 : Fin 2) * 400 ≤ (i 0).val ∧ (i 0).val < win5_2.index _ (0 : Fin 2) * 400 + 400; rw [e4]; show (i 0).val / 400 * 400 ≤ (i 0).val ∧ (i 0).val < (i 0).val / 400 * 400 + 400; omega
  | ⟨1, _⟩ => show win5_2.index _ (1 : Fin 2) * 64 ≤ (i 1).val ∧ (i 1).val < win5_2.index _ (1 : Fin 2) * 64 + 64; rw [e5]; omega

/-- The array after the pass is the product of the adjacency with the array the pass is given. -/
theorem final (c : Dev nD) :
    (dat5 (F := Ideal) V c).arrAt 2 cfg5.N = Spec.mm (V c main_arg3) (V c main_v4) :=
  (dat5 (F := Ideal) V c).arrAt_eq_of_cover 2 (Spec.mm (V c main_arg3) (V c main_v4))
    (fun t _ => flushed_eq V c t) (cover)

end Cert.KernelIdeal.Reg5

end
-- ==== Proof.Reg6.lean ====
/-
  The decoder: the 10000 x 10000 array it leaves is the matrix product of the 10000 x 32 array with the 32 x 10000
  array it is given.

  The pass runs over 25 points; point t takes rows 400 t to 400 t + 399 of the left factor, the whole right factor, and
  writes rows 400 t to 400 t + 399 of the result: entry (y, j) of its block is the sum over the 32 values of k of
  left (400 t + y, k) * right (k, j).  Row r of the result therefore comes from point r / 400, and every row is
  written, so the array after the pass is the product.
-/
import proofs.«141607_g53214644798189_cont_9to1_m_710_5_alg».proof.Proof.Gen.KernelIdeal.Frame
import proofs.«141607_g53214644798189_cont_9to1_m_710_5_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product's operand indices -/

theorem lhs_0 (i : S400x10000.Idx) (q : dot_S400x32_S32x10000_S400x10000_1_0_0_1_n_n.contr.Idx) :
    (dot_S400x32_S32x10000_S400x10000_1_0_0_1_n_n.lhsIdx i q 0).val = (i 0).val := by
  unfold DotDims.lhsIdx
  rw [dif_neg (show ¬(0 : Fin S400x32.rank) ∈ dot_S400x32_S32x10000_S400x10000_1_0_0_1_n_n.lhsBatch by decide), dif_pos (show (0 : Fin S400x32.rank) ∈ dot_S400x32_S32x10000_S400x10000_1_0_0_1_n_n.lhsNonContracting by decide)]
  rfl
theorem lhs_1 (i : S400x10000.Idx) (q : dot_S400x32_S32x10000_S400x10000_1_0_0_1_n_n.contr.Idx) :
    (dot_S400x32_S32x10000_S400x10000_1_0_0_1_n_n.lhsIdx i q 1).val = (q ⟨0, by decide⟩).val :=
  dot_S400x32_S32x10000_S400x10000_1_0_0_1_n_n.lhsIdx_val_of_single rfl i q
theorem rhs_0 (i : S400x10000.Idx) (q : dot_S400x32_S32x10000_S400x10000_1_0_0_1_n_n.contr.Idx) :
    (dot_S400x32_S32x10000_S400x10000_1_0_0_1_n_n.rhsIdx i q 0).val = (q ⟨0, by decide⟩).val :=
  dot_S400x32_S32x10000_S400x10000_1_0_0_1_n_n.rhsIdx_val_of_single rfl i q
theorem rhs_1 (i : S400x10000.Idx) (q : dot_S400x32_S32x10000_S400x10000_1_0_0_1_n_n.contr.Idx) :
    (dot_S400x32_S32x10000_S400x10000_1_0_0_1_n_n.rhsIdx i q 1).val = (i 1).val := by
  unfold DotDims.rhsIdx
  rw [dif_neg (show ¬(1 : Fin S32x10000.rank) ∈ dot_S400x32_S32x10000_S400x10000_1_0_0_1_n_n.rhsBatch by decide), dif_pos (show (1 : Fin S32x10000.rank) ∈ dot_S400x32_S32x10000_S400x10000_1_0_0_1_n_n.rhsNonContracting by decide)]
  rfl

/-- The body's stored value is the product of its two loaded blocks. -/
theorem pay_eq (x0 : FVec Ideal S400x32 .bf16) (x1 : FVec Ideal S32x10000 .bf16) :
    k6_pay1 (F := Ideal) x0 x1 = Spec.mm x0 x1 := by
  funext i
  unfold k6_pay1
  rw [shapeCast_self, shapeCast_self]
  refine (Ideal.matmul_constant_zero_apply _ none x0 x1 i).trans ?_
  exact Spec.sum_contr_eq_mm dot_S400x32_S32x10000_S400x10000_1_0_0_1_n_n rfl rfl lhs_0 lhs_1 rhs_0 rhs_1 x0 x1 i

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor's and the result's blocks move down with the point, the
    right factor's block is the whole array. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem N_eq : cfg6.N = 25 := rfl

theorem t_lt (t : Fin cfg6.N) : t.val < 25 := t.isLt

/-- The left factor's block at point `t`, at its literal type. -/
abbrev ablk (c : Dev nD) (t : Fin cfg6.N) : FVec Ideal S400x32 .bf16 := iblk6 V c 0 t
/-- The right factor's block at point `t`, at its literal type. -/
abbrev bblk (c : Dev nD) (t : Fin cfg6.N) : FVec Ideal S32x10000 .bf16 := iblk6 V c 1 t

/-- Row `y` of the left factor's block at point `t` is row `400 t + y` of the left factor. -/
theorem ablk_apply (c : Dev nD) (t : Fin cfg6.N) (y : Fin 400) (l : Fin 32) :
    ablk V c t (ix2 y l) = V c main_v11 (ix2 (⟨400 * t.val + y.val, by have := t_lt t; have := y.isLt; omega⟩ : Fin 10000) l) := by
  obtain ⟨e0, e1, -⟩ := idx_facts t
  show V c main_v11 (((cfg6.win 0).blk t).view.emb (ix2 y l)) = _
  refine congrArg (V c main_v11) (funext fun a => Fin.ext ?_)
  match a with
  | ⟨0, _⟩ => show win6_0.index t (0 : Fin 2) * 400 + 1 * y.val = 400 * t.val + y.val; omega
  | ⟨1, _⟩ => show win6_0.index t (1 : Fin 2) * 32 + 1 * l.val = l.val; omega

/-- The right factor's block is the whole right factor. -/
theorem bblk_apply (c : Dev nD) (t : Fin cfg6.N) (l : Fin 32) (q : Fin 10000) :
    bblk V c t (ix2 l q) = V c main_v13 (ix2 l q) := by
  obtain ⟨-, -, e2, e3, -⟩ := idx_facts t
  show V c main_v13 (((cfg6.win 1).blk t).view.emb (ix2 l q)) = _
  refine congrArg (V c main_v13) (funext fun a => Fin.ext ?_)
  match a with
  | ⟨0, _⟩ => show win6_1.index t (0 : Fin 2) * 32 + 1 * l.val = l.val; omega
  | ⟨1, _⟩ => show win6_1.index t (1 : Fin 2) * 10000 + 1 * q.val = q.val; omega

/-- Entry `(y, q)` of the result's block at point `t` sits at `(400 t + y, q)` of the result. -/
theorem oblk_emb (t : Fin cfg6.N) (y : Fin 400) (q : Fin 10000) :
    ((cfg6.win 2).blk t).view.emb (ix2 y q)
      = ix2 (⟨400 * t.val + y.val, by have := t_lt t; have := y.isLt; omega⟩ : Fin 10000) q := by
  obtain ⟨-, -, -, -, e4, e5⟩ := idx_facts t
  refine funext fun a => Fin.ext ?_
  match a with
  | ⟨0, _⟩ => show win6_2.index t (0 : Fin 2) * 400 + 1 * y.val = 400 * t.val + y.val; omega
  | ⟨1, _⟩ => show win6_2.index t (1 : Fin 2) * 10000 + 1 * q.val = q.val; omega

/-- What point `t` writes back is block `t` of the product of the two arrays the pass is given. -/
theorem flushed_eq (c : Dev nD) (t : Fin cfg6.N) :
    (dat6 (F := Ideal) V c).flushed 2 t
      = ((cfg6.win 2).blk t).view.read (Elt Ideal) (Spec.mm (V c main_v11) (V c main_v13)) := by
  show (cfg6.win 2).cut (grid6.coords t) ((dat6 (F := Ideal) V c).after 2 t) = _
  rw [after6_2]
  unfold out6_2
  rw [View.canon_unit_zero hz]
  simp only [View.ld_unit_zero (S := S400x32) hz, View.ld_unit_zero (S := S32x10000) hz]
  rw [pay_eq]
  funext j
  obtain ⟨y, q, rfl⟩ : ∃ (y : Fin 400) (q : Fin 10000), j = ix2 y q := ⟨j 0, j 1, eq_ix2 j⟩
  show Spec.mm (ablk V c t) (bblk V c t) (ix2 y q)
    = Spec.mm (V c main_v11) (V c main_v13) (((cfg6.win 2).blk t).view.emb (ix2 y q))
  rw [oblk_emb, Spec.mm_apply, Spec.mm_apply]
  refine Finset.sum_congr rfl fun l _ => ?_
  rw [ablk_apply, bblk_apply]

/-- An index of the result is in point `t`'s block iff its row is one of the block's 400 rows. -/
theorem mem_blk (t : Fin cfg6.N) (i : S10000x10000.Idx) :
    i ∈ ((cfg6.win 2).blk t).view.set ↔ ∀ a : Fin 2, win6_2.index t a * S400x10000.size a ≤ (i a).val ∧ (i a).val < win6_2.index t a * S400x10000.size a + S400x10000.size a := by
  show i ∈ ((View.whole main_v14).slice (win6_2.rect t)).set ↔ _
  rw [View.set_slice_whole, Rect.mem_set_unit]
  exact Iff.rfl

/-- Every index of the result is in the block of the point its row falls in. -/
theorem cover (i : S10000x10000.Idx) :
    ∃ t : Fin cfg6.N, (cfg6.win 2).flush t = true ∧ i ∈ ((cfg6.win 2).blk t).view.set := by
  have hi0 : (i 0).val < 10000 := idx2_lt0 i
  have hi1 : (i 1).val < 10000 := idx2_lt1 i
  refine ⟨⟨(i 0).val / 400, by rw [N_eq]; omega⟩, flush6_2 _, ?_⟩
  rw [mem_blk]
  obtain ⟨-, -, -, -, e4, e5⟩ := idx_facts ⟨(i 0).val / 400, by rw [N_eq]; omega⟩
  intro a
  match a with
  | ⟨0, _⟩ => show win6_2.index _ (0 : Fin 2) * 400 ≤ (i 0).val ∧ (i 0).val < win6_2.index _ (0 : Fin 2) * 400 + 400; rw [e4]; show (i 0).val / 400 * 400 ≤ (i 0).val ∧ (i 0).val < (i 0).val / 400 * 400 + 400; omega
  | ⟨1, _⟩ => show win6_2.index _ (1 : Fin 2) * 10000 ≤ (i 1).val ∧ (i 1).val < win6_2.index _ (1 : Fin 2) * 10000 + 10000; rw [e5]; omega

/-- The array after the pass is the product of the two arrays the pass is given. -/
theorem final (c : Dev nD) :
    (dat6 (F := Ideal) V c).arrAt 2 cfg6.N = Spec.mm (V c main_v11) (V c main_v13) :=
  (dat6 (F := Ideal) V c).arrAt_eq_of_cover 2 (Spec.mm (V c main_v11) (V c main_v13))
    (fun t _ => flushed_eq V c t) (cover)

end Cert.KernelIdeal.Reg6

end
-- ==== Proof.Chain.lean ====
/-
  What each result array holds after the run, as a function of the arrays the program was launched with.

  The run passes through ten boundaries: the launch, the host stretch that joins the two second-layer weight
  matrices side by side, the seven kernel regions in order (the two supports X · W1; the two hidden layers times the
  joined weights, relu (A · S) · [W2 | W3]; the two fused second propagations A · G; the decoder), with the host
  stretch that cuts the fused arrays in halves, narrows the float format of the two mean heads and transposes the
  second one between the sixth and the seventh region.  At each boundary a buffer holds either what the region
  just left wrote (its product, by that region's theorem, of buffers known at the boundary before), or what it
  held at the boundary before (the region does not write it), and so, walking back, a function of the launch
  arrays.  The halves of the fused array are the two heads (`Spec.colsLo_fused`, `Spec.colsHi_fused`).
-/
import proofs.«141607_g53214644798189_cont_9to1_m_710_5_alg».proof.Proof.RunVals
import proofs.«141607_g53214644798189_cont_9to1_m_710_5_alg».proof.Proof.HostOps
import proofs.«141607_g53214644798189_cont_9to1_m_710_5_alg».proof.Proof.Reg0
import proofs.«141607_g53214644798189_cont_9to1_m_710_5_alg».proof.Proof.Reg1
import proofs.«141607_g53214644798189_cont_9to1_m_710_5_alg».proof.Proof.Reg2
import proofs.«141607_g53214644798189_cont_9to1_m_710_5_alg».proof.Proof.Reg3
import proofs.«141607_g53214644798189_cont_9to1_m_710_5_alg».proof.Proof.Reg4
import proofs.«141607_g53214644798189_cont_9to1_m_710_5_alg».proof.Proof.Reg5
import proofs.«141607_g53214644798189_cont_9to1_m_710_5_alg».proof.Proof.Reg6
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The launch arrays -/

/-- The first side's features. -/
abbrev xO (c : Dev nD) : Spec.Mat 10000 128 := m ((c : Thread nD τ).loc main_arg0)
/-- The second side's features. -/
abbrev xI (c : Dev nD) : Spec.Mat 10000 128 := m ((c : Thread nD τ).loc main_arg1)
/-- The first side's adjacency. -/
abbrev aO (c : Dev nD) : Spec.Mat 10000 10000 := m ((c : Thread nD τ).loc main_arg2)
/-- The second side's adjacency. -/
abbrev aI (c : Dev nD) : Spec.Mat 10000 10000 := m ((c : Thread nD τ).loc main_arg3)
/-- The first layer's weights. -/
abbrev w1 (c : Dev nD) : Spec.Mat 128 64 := m ((c : Thread nD τ).loc main_arg4)
/-- The mean head's weights. -/
abbrev w2 (c : Dev nD) : Spec.Mat 64 32 := m ((c : Thread nD τ).loc main_arg5)
/-- The log-variance head's weights. -/
abbrev w3 (c : Dev nD) : Spec.Mat 64 32 := m ((c : Thread nD τ).loc main_arg6)

/-! ## The boundaries, in order -/

/-- After the first host stretch (the side-by-side join of the two second-layer weight matrices) every argument array is as launched: the stretch writes none of them. -/
theorem s1_arg0 (c : Dev nD) : W1 m ρ c (Proc.devRef .tc main_arg0) = xO m c :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem s1_arg1 (c : Dev nD) : W1 m ρ c (Proc.devRef .tc main_arg1) = xI m c :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem s1_arg2 (c : Dev nD) : W1 m ρ c (Proc.devRef .tc main_arg2) = aO m c :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem s1_arg3 (c : Dev nD) : W1 m ρ c (Proc.devRef .tc main_arg3) = aI m c :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem s1_arg4 (c : Dev nD) : W1 m ρ c (Proc.devRef .tc main_arg4) = w1 m c :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem s1_arg5 (c : Dev nD) : W1 m ρ c (Proc.devRef .tc main_arg5) = w2 m c :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem s1_arg6 (c : Dev nD) : W1 m ρ c (Proc.devRef .tc main_arg6) = w3 m c :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first host stretch joins the two 64 x 32 second-layer weight matrices side by side. -/
theorem s1_v0 (c : Dev nD) : W1 m ρ c (Proc.devRef .tc main_v0) = Spec.wcat (w2 m c) (w3 m c) := by
  show StableHlo.after hostOps0 (W0 m ρ c) (Proc.devRef .tc main_v0) = _
  after_results
  exact Spec.concat_eq _ _ _

/-- The first side's support: features times first-layer weights. -/
theorem s2_v1 (c : Dev nD) : W2 m ρ c (Proc.devRef .tc main_v1) = Spec.mm (xO m c) (w1 m c) := by
  refine ((W2_arr m ρ c 2).trans (Reg0.final (V1 m ρ) c)).trans ?_
  rw [show V1 m ρ c main_arg0 = _ from s1_arg0 m ρ c, show V1 m ρ c main_arg4 = _ from s1_arg4 m ρ c]

theorem s2_arg4 (c : Dev nD) : W2 m ρ c (Proc.devRef .tc main_arg4) = w1 m c :=
  ((W2_arr m ρ c 1).trans (((dat0 (V1 m ρ) c).arrAt_in 1 rfl _).trans (A_eq0 (V1 m ρ) c 1))).trans (s1_arg4 m ρ c)

theorem s2_arg1 (c : Dev nD) : W2 m ρ c (Proc.devRef .tc main_arg1) = xI m c :=
  (W2_of_ne m ρ c main_arg1 (by decide)).trans (s1_arg1 m ρ c)

theorem s2_arg2 (c : Dev nD) : W2 m ρ c (Proc.devRef .tc main_arg2) = aO m c :=
  (W2_of_ne m ρ c main_arg2 (by decide)).trans (s1_arg2 m ρ c)

theorem s2_arg3 (c : Dev nD) : W2 m ρ c (Proc.devRef .tc main_arg3) = aI m c :=
  (W2_of_ne m ρ c main_arg3 (by decide)).trans (s1_arg3 m ρ c)

theorem s2_v0 (c : Dev nD) : W2 m ρ c (Proc.devRef .tc main_v0) = Spec.wcat (w2 m c) (w3 m c) :=
  (W2_of_ne m ρ c main_v0 (by decide)).trans (s1_v0 m ρ c)

/-- The second side's support. -/
theorem s3_v2 (c : Dev nD) : W3 m ρ c (Proc.devRef .tc main_v2) = Spec.mm (xI m c) (w1 m c) := by
  refine ((W3_arr m ρ c 2).trans (Reg1.final (V2 m ρ) c)).trans ?_
  rw [show V2 m ρ c main_arg1 = _ from s2_arg1 m ρ c, show V2 m ρ c main_arg4 = _ from s2_arg4 m ρ c]

theorem s3_arg2 (c : Dev nD) : W3 m ρ c (Proc.devRef .tc main_arg2) = aO m c :=
  (W3_of_ne m ρ c main_arg2 (by decide)).trans (s2_arg2 m ρ c)

theorem s3_arg3 (c : Dev nD) : W3 m ρ c (Proc.devRef .tc main_arg3) = aI m c :=
  (W3_of_ne m ρ c main_arg3 (by decide)).trans (s2_arg3 m ρ c)

theorem s3_v0 (c : Dev nD) : W3 m ρ c (Proc.devRef .tc main_v0) = Spec.wcat (w2 m c) (w3 m c) :=
  (W3_of_ne m ρ c main_v0 (by decide)).trans (s2_v0 m ρ c)

theorem s3_v1 (c : Dev nD) : W3 m ρ c (Proc.devRef .tc main_v1) = Spec.mm (xO m c) (w1 m c) :=
  (W3_of_ne m ρ c main_v1 (by decide)).trans (s2_v1 m ρ c)

/-- The first side's hidden layer times the joined second-layer weights. -/
theorem s4_v3 (c : Dev nD) : W4 m ρ c (Proc.devRef .tc main_v3) = Spec.mm (Spec.relu (Spec.mm (aO m c) (Spec.mm (xO m c) (w1 m c)))) (Spec.wcat (w2 m c) (w3 m c)) := by
  refine ((W4_arr m ρ c 3).trans (Reg2.final (V3 m ρ) c)).trans ?_
  rw [show V3 m ρ c main_arg2 = _ from s3_arg2 m ρ c, show V3 m ρ c main_v1 = _ from s3_v1 m ρ c, show V3 m ρ c main_v0 = _ from s3_v0 m ρ c]

theorem s4_arg2 (c : Dev nD) : W4 m ρ c (Proc.devRef .tc main_arg2) = aO m c :=
  ((W4_arr m ρ c 0).trans (((dat2 (V3 m ρ) c).arrAt_in 0 rfl _).trans (A_eq2 (V3 m ρ) c 0))).trans (s3_arg2 m ρ c)

theorem s4_v0 (c : Dev nD) : W4 m ρ c (Proc.devRef .tc main_v0) = Spec.wcat (w2 m c) (w3 m c) :=
  ((W4_arr m ρ c 2).trans (((dat2 (V3 m ρ) c).arrAt_in 2 rfl _).trans (A_eq2 (V3 m ρ) c 2))).trans (s3_v0 m ρ c)

theorem s4_arg3 (c : Dev nD) : W4 m ρ c (Proc.devRef .tc main_arg3) = aI m c :=
  (W4_of_ne m ρ c main_arg3 (by decide)).trans (s3_arg3 m ρ c)

theorem s4_v2 (c : Dev nD) : W4 m ρ c (Proc.devRef .tc main_v2) = Spec.mm (xI m c) (w1 m c) :=
  (W4_of_ne m ρ c main_v2 (by decide)).trans (s3_v2 m ρ c)

/-- The second side's hidden layer times the joined second-layer weights. -/
theorem s5_v4 (c : Dev nD) : W5 m ρ c (Proc.devRef .tc main_v4) = Spec.mm (Spec.relu (Spec.mm (aI m c) (Spec.mm (xI m c) (w1 m c)))) (Spec.wcat (w2 m c) (w3 m c)) := by
  refine ((W5_arr m ρ c 3).trans (Reg3.final (V4 m ρ) c)).trans ?_
  rw [show V4 m ρ c main_arg3 = _ from s4_arg3 m ρ c, show V4 m ρ c main_v2 = _ from s4_v2 m ρ c, show V4 m ρ c main_v0 = _ from s4_v0 m ρ c]

theorem s5_arg3 (c : Dev nD) : W5 m ρ c (Proc.devRef .tc main_arg3) = aI m c :=
  ((W5_arr m ρ c 0).trans (((dat3 (V4 m ρ) c).arrAt_in 0 rfl _).trans (A_eq3 (V4 m ρ) c 0))).trans (s4_arg3 m ρ c)

theorem s5_arg2 (c : Dev nD) : W5 m ρ c (Proc.devRef .tc main_arg2) = aO m c :=
  (W5_of_ne m ρ c main_arg2 (by decide)).trans (s4_arg2 m ρ c)

theorem s5_v3 (c : Dev nD) : W5 m ρ c (Proc.devRef .tc main_v3) = Spec.mm (Spec.relu (Spec.mm (aO m c) (Spec.mm (xO m c) (w1 m c)))) (Spec.wcat (w2 m c) (w3 m c)) :=
  (W5_of_ne m ρ c main_v3 (by decide)).trans (s4_v3 m ρ c)

/-- The first side's fused second propagation. -/
theorem s6_v5 (c : Dev nD) : W6 m ρ c (Proc.devRef .tc main_v5) = Spec.fused (aO m c) (xO m c) (w1 m c) (w2 m c) (w3 m c) := by
  refine ((W6_arr m ρ c 2).trans (Reg4.final (V5 m ρ) c)).trans ?_
  rw [show V5 m ρ c main_arg2 = _ from s5_arg2 m ρ c, show V5 m ρ c main_v3 = _ from s5_v3 m ρ c]
  rfl

theorem s6_arg3 (c : Dev nD) : W6 m ρ c (Proc.devRef .tc main_arg3) = aI m c :=
  (W6_of_ne m ρ c main_arg3 (by decide)).trans (s5_arg3 m ρ c)

theorem s6_v4 (c : Dev nD) : W6 m ρ c (Proc.devRef .tc main_v4) = Spec.mm (Spec.relu (Spec.mm (aI m c) (Spec.mm (xI m c) (w1 m c)))) (Spec.wcat (w2 m c) (w3 m c)) :=
  (W6_of_ne m ρ c main_v4 (by decide)).trans (s5_v4 m ρ c)

/-- The second side's fused second propagation. -/
theorem s7_v6 (c : Dev nD) : W7 m ρ c (Proc.devRef .tc main_v6) = Spec.fused (aI m c) (xI m c) (w1 m c) (w2 m c) (w3 m c) := by
  refine ((W7_arr m ρ c 2).trans (Reg5.final (V6 m ρ) c)).trans ?_
  rw [show V6 m ρ c main_arg3 = _ from s6_arg3 m ρ c, show V6 m ρ c main_v4 = _ from s6_v4 m ρ c]
  rfl

theorem s7_v5 (c : Dev nD) : W7 m ρ c (Proc.devRef .tc main_v5) = Spec.fused (aO m c) (xO m c) (w1 m c) (w2 m c) (w3 m c) :=
  (W7_of_ne m ρ c main_v5 (by decide)).trans (s6_v5 m ρ c)

/-- The left half of the first side's fused array is its mean head. -/
theorem s8_v7 (c : Dev nD) : W8 m ρ c (Proc.devRef .tc main_v7) = Spec.head (aO m c) (xO m c) (w1 m c) (w2 m c) := by
  show StableHlo.after hostOps6 (W7 m ρ c) (Proc.devRef .tc main_v7) = _
  after_results
  rw [s7_v5 m ρ c, Spec.slice_lo, Spec.colsLo_fused]

/-- The right half is its log-variance head. -/
theorem s8_v8 (c : Dev nD) : W8 m ρ c (Proc.devRef .tc main_v8) = Spec.head (aO m c) (xO m c) (w1 m c) (w3 m c) := by
  show StableHlo.after hostOps6 (W7 m ρ c) (Proc.devRef .tc main_v8) = _
  after_results
  rw [s7_v5 m ρ c, Spec.slice_hi, Spec.colsHi_fused]

theorem s8_v9 (c : Dev nD) : W8 m ρ c (Proc.devRef .tc main_v9) = Spec.head (aI m c) (xI m c) (w1 m c) (w2 m c) := by
  show StableHlo.after hostOps6 (W7 m ρ c) (Proc.devRef .tc main_v9) = _
  after_results
  rw [s7_v6 m ρ c, Spec.slice_lo, Spec.colsLo_fused]

theorem s8_v10 (c : Dev nD) : W8 m ρ c (Proc.devRef .tc main_v10) = Spec.head (aI m c) (xI m c) (w1 m c) (w3 m c) := by
  show StableHlo.after hostOps6 (W7 m ρ c) (Proc.devRef .tc main_v10) = _
  after_results
  rw [s7_v6 m ρ c, Spec.slice_hi, Spec.colsHi_fused]

/-- Narrowing the float format changes no value over the extended reals. -/
theorem s8_v11 (c : Dev nD) : W8 m ρ c (Proc.devRef .tc main_v11) = Spec.head (aO m c) (xO m c) (w1 m c) (w2 m c) := by
  show StableHlo.after hostOps6 (W7 m ρ c) (Proc.devRef .tc main_v11) = _
  after_results
  rw [s7_v5 m ρ c, Spec.slice_lo, Spec.colsLo_fused]
  rfl

theorem s8_v13 (c : Dev nD) : W8 m ρ c (Proc.devRef .tc main_v13) = Spec.tr (Spec.head (aI m c) (xI m c) (w1 m c) (w2 m c)) := by
  show StableHlo.after hostOps6 (W7 m ρ c) (Proc.devRef .tc main_v13) = _
  after_results
  rw [s7_v6 m ρ c, Spec.slice_lo, Spec.colsLo_fused, Spec.transpose_eq]
  rfl

/-- The decoder: the first side's mean head times the transpose of the second side's. -/
theorem s9_v14 (c : Dev nD) : W9 m ρ c (Proc.devRef .tc main_v14) = Spec.recon (Spec.head (aO m c) (xO m c) (w1 m c) (w2 m c)) (Spec.head (aI m c) (xI m c) (w1 m c) (w2 m c)) := by
  refine ((W9_arr m ρ c 2).trans (Reg6.final (V8 m ρ) c)).trans ?_
  rw [show V8 m ρ c main_v11 = _ from s8_v11 m ρ c, show V8 m ρ c main_v13 = _ from s8_v13 m ρ c]
  rfl

theorem s9_v7 (c : Dev nD) : W9 m ρ c (Proc.devRef .tc main_v7) = Spec.head (aO m c) (xO m c) (w1 m c) (w2 m c) :=
  (W9_of_ne m ρ c main_v7 (by decide)).trans (s8_v7 m ρ c)

theorem s9_v8 (c : Dev nD) : W9 m ρ c (Proc.devRef .tc main_v8) = Spec.head (aO m c) (xO m c) (w1 m c) (w3 m c) :=
  (W9_of_ne m ρ c main_v8 (by decide)).trans (s8_v8 m ρ c)

theorem s9_v9 (c : Dev nD) : W9 m ρ c (Proc.devRef .tc main_v9) = Spec.head (aI m c) (xI m c) (w1 m c) (w2 m c) :=
  (W9_of_ne m ρ c main_v9 (by decide)).trans (s8_v9 m ρ c)

theorem s9_v10 (c : Dev nD) : W9 m ρ c (Proc.devRef .tc main_v10) = Spec.head (aI m c) (xI m c) (w1 m c) (w3 m c) :=
  (W9_of_ne m ρ c main_v10 (by decide)).trans (s8_v10 m ρ c)

end Cert.KernelIdeal.Chain

end
-- ==== Proof.RefIs.lean ====
/-
  The reference's stages are the specification's functions.

  Each stage of the reference is read at an index `(p, q)`.  A contraction stage is there a sum over `l` of the left
  operand at `(p, l)` times the right operand at `(l, q)`, which is the entry of the matrix product; the stage between
  the two passes is the pointwise maximum with the zero word, which is the number zero, so it is `relu`; the layout
  stage reads its operand at `(q, p)`, so it is the transpose.  Composing the stages in program order gives, for
  either side and either second-layer weight, the encoder head `A · (relu (A · (X · W1)) · W)`, and for the last
  stage the decoder `μ · νᵀ` of the two first heads.
-/
import proofs.«141607_g53214644798189_cont_9to1_m_710_5_alg».proof.Proof.Gen.ReferenceIdeal.Read
import proofs.«141607_g53214644798189_cont_9to1_m_710_5_alg».proof.Proof.Spec

noncomputable section

namespace Cert.ReferenceIdeal.RefIs

open Cert.ReferenceIdeal Cert.ReferenceIdeal.Read Idealize.ShloMosaic Idealize.ShloMosaic.ValueIdx

/-- A sum over `l` of `A` at an index equal to `(p, l)` times `B` at an index equal to `(l, q)` is the `(p, q)` entry
    of the matrix product. -/
theorem sum_eq_mm {a k b : Nat} (A : Spec.Mat a k) (B : Spec.Mat k b) (p : Fin a) (q : Fin b)
    (li : Fin k → (⟨2, ![a, k]⟩ : Shape).Idx) (ri : Fin k → (⟨2, ![k, b]⟩ : Shape).Idx)
    (hl : ∀ l, li l = ix2 p l) (hr : ∀ l, ri l = ix2 l q) :
    ∑ l : Fin k, A (li l) * B (ri l) = Spec.mm A B (ix2 p q) := by
  rw [Spec.mm_apply]
  exact Finset.sum_congr rfl fun l _ => by rw [hl l, hr l]

/-- The maximum with the zero word is the maximum with zero. -/
theorem max_zero_word (x : EReal) :
    FloatOps.maximumf (F := Ideal) (φ := .f32) x (FloatOps.ofBits .f32 0x00000000#32) = max x 0 := by
  rw [Ideal.maximumf_def]
  exact congrArg (max x) Ideal.ofBits_zero_f32

/-! ### The first side: `X = x0`, `A = x2` -/

theorem v0_eq (x0 : Spec.Mat 10000 128) (x4 : Spec.Mat 128 64) :
    val_main_v0 (F := Ideal) x0 x4 = Spec.mm x0 x4 := by
  funext i
  obtain ⟨p, q, rfl⟩ : ∃ (p : Fin 10000) (q : Fin 64), i = ix2 p q := ⟨i 0, i 1, eq_ix2 i⟩
  rw [val_main_v0_apply]
  exact sum_eq_mm x0 x4 p q (lidx_main_v0 (ix2 p q)) (ridx_main_v0 (ix2 p q))
    (fun l => funext fun a => Fin.ext (by match a with | ⟨0, _⟩ => rfl | ⟨1, _⟩ => rfl))
    (fun l => funext fun a => Fin.ext (by match a with | ⟨0, _⟩ => rfl | ⟨1, _⟩ => rfl))

theorem v1_eq (x0 : Spec.Mat 10000 128) (x2 : Spec.Mat 10000 10000) (x4 : Spec.Mat 128 64) :
    val_main_v1 (F := Ideal) x0 x2 x4 = Spec.mm x2 (Spec.mm x0 x4) := by
  funext i
  obtain ⟨p, q, rfl⟩ : ∃ (p : Fin 10000) (q : Fin 64), i = ix2 p q := ⟨i 0, i 1, eq_ix2 i⟩
  rw [val_main_v1_apply, v0_eq]
  exact sum_eq_mm x2 (Spec.mm x0 x4) p q (lidx_main_v1 (ix2 p q)) (ridx_main_v1 (ix2 p q))
    (fun l => funext fun a => Fin.ext (by match a with | ⟨0, _⟩ => rfl | ⟨1, _⟩ => rfl))
    (fun l => funext fun a => Fin.ext (by match a with | ⟨0, _⟩ => rfl | ⟨1, _⟩ => rfl))

theorem v2_eq (x0 : Spec.Mat 10000 128) (x2 : Spec.Mat 10000 10000) (x4 : Spec.Mat 128 64) :
    val_main_v2 (F := Ideal) x0 x2 x4 = Spec.relu (Spec.mm x2 (Spec.mm x0 x4)) := by
  funext i
  rw [val_main_v2_apply, val_main_call0_v0_apply, val_main_call0_cst_apply, v1_eq, Spec.relu_apply]
  exact max_zero_word _

theorem v3_eq (x0 : Spec.Mat 10000 128) (x2 : Spec.Mat 10000 10000) (x4 : Spec.Mat 128 64) (x5 : Spec.Mat 64 32) :
    val_main_v3 (F := Ideal) x0 x2 x4 x5 = Spec.mm (Spec.relu (Spec.mm x2 (Spec.mm x0 x4))) x5 := by
  funext i
  obtain ⟨p, q, rfl⟩ : ∃ (p : Fin 10000) (q : Fin 32), i = ix2 p q := ⟨i 0, i 1, eq_ix2 i⟩
  rw [val_main_v3_apply, v2_eq]
  exact sum_eq_mm (Spec.relu (Spec.mm x2 (Spec.mm x0 x4))) x5 p q (lidx_main_v3 (ix2 p q)) (ridx_main_v3 (ix2 p q))
    (fun l => funext fun a => Fin.ext (by match a with | ⟨0, _⟩ => rfl | ⟨1, _⟩ => rfl))
    (fun l => funext fun a => Fin.ext (by match a with | ⟨0, _⟩ => rfl | ⟨1, _⟩ => rfl))

/-- The first side's head with the first second-layer weight. -/
theorem v4_eq (x0 : Spec.Mat 10000 128) (x2 : Spec.Mat 10000 10000) (x4 : Spec.Mat 128 64) (x5 : Spec.Mat 64 32) :
    val_main_v4 (F := Ideal) x0 x2 x4 x5 = Spec.head x2 x0 x4 x5 := by
  unfold Spec.head
  funext i
  obtain ⟨p, q, rfl⟩ : ∃ (p : Fin 10000) (q : Fin 32), i = ix2 p q := ⟨i 0, i 1, eq_ix2 i⟩
  rw [val_main_v4_apply, v3_eq]
  exact sum_eq_mm x2 (Spec.mm (Spec.relu (Spec.mm x2 (Spec.mm x0 x4))) x5) p q
    (lidx_main_v4 (ix2 p q)) (ridx_main_v4 (ix2 p q))
    (fun l => funext fun a => Fin.ext (by match a with | ⟨0, _⟩ => rfl | ⟨1, _⟩ => rfl))
    (fun l => funext fun a => Fin.ext (by match a with | ⟨0, _⟩ => rfl | ⟨1, _⟩ => rfl))

theorem v5_eq (x0 : Spec.Mat 10000 128) (x2 : Spec.Mat 10000 10000) (x4 : Spec.Mat 128 64) (x6 : Spec.Mat 64 32) :
    val_main_v5 (F := Ideal) x0 x2 x4 x6 = Spec.mm (Spec.relu (Spec.mm x2 (Spec.mm x0 x4))) x6 := by
  funext i
  obtain ⟨p, q, rfl⟩ : ∃ (p : Fin 10000) (q : Fin 32), i = ix2 p q := ⟨i 0, i 1, eq_ix2 i⟩
  rw [val_main_v5_apply, v2_eq]
  exact sum_eq_mm (Spec.relu (Spec.mm x2 (Spec.mm x0 x4))) x6 p q (lidx_main_v5 (ix2 p q)) (ridx_main_v5 (ix2 p q))
    (fun l => funext fun a => Fin.ext (by match a with | ⟨0, _⟩ => rfl | ⟨1, _⟩ => rfl))
    (fun l => funext fun a => Fin.ext (by match a with | ⟨0, _⟩ => rfl | ⟨1, _⟩ => rfl))

/-- The first side's head with the second second-layer weight. -/
theorem v6_eq (x0 : Spec.Mat 10000 128) (x2 : Spec.Mat 10000 10000) (x4 : Spec.Mat 128 64) (x6 : Spec.Mat 64 32) :
    val_main_v6 (F := Ideal) x0 x2 x4 x6 = Spec.head x2 x0 x4 x6 := by
  unfold Spec.head
  funext i
  obtain ⟨p, q, rfl⟩ : ∃ (p : Fin 10000) (q : Fin 32), i = ix2 p q := ⟨i 0, i 1, eq_ix2 i⟩
  rw [val_main_v6_apply, v5_eq]
  exact sum_eq_mm x2 (Spec.mm (Spec.relu (Spec.mm x2 (Spec.mm x0 x4))) x6) p q
    (lidx_main_v6 (ix2 p q)) (ridx_main_v6 (ix2 p q))
    (fun l => funext fun a => Fin.ext (by match a with | ⟨0, _⟩ => rfl | ⟨1, _⟩ => rfl))
    (fun l => funext fun a => Fin.ext (by match a with | ⟨0, _⟩ => rfl | ⟨1, _⟩ => rfl))

/-! ### The second side: `X = x1`, `A = x3` -/

theorem v7_eq (x1 : Spec.Mat 10000 128) (x4 : Spec.Mat 128 64) :
    val_main_v7 (F := Ideal) x1 x4 = Spec.mm x1 x4 := by
  funext i
  obtain ⟨p, q, rfl⟩ : ∃ (p : Fin 10000) (q : Fin 64), i = ix2 p q := ⟨i 0, i 1, eq_ix2 i⟩
  rw [val_main_v7_apply]
  exact sum_eq_mm x1 x4 p q (lidx_main_v7 (ix2 p q)) (ridx_main_v7 (ix2 p q))
    (fun l => funext fun a => Fin.ext (by match a with | ⟨0, _⟩ => rfl | ⟨1, _⟩ => rfl))
    (fun l => funext fun a => Fin.ext (by match a with | ⟨0, _⟩ => rfl | ⟨1, _⟩ => rfl))

theorem v8_eq (x1 : Spec.Mat 10000 128) (x3 : Spec.Mat 10000 10000) (x4 : Spec.Mat 128 64) :
    val_main_v8 (F := Ideal) x1 x3 x4 = Spec.mm x3 (Spec.mm x1 x4) := by
  funext i
  obtain ⟨p, q, rfl⟩ : ∃ (p : Fin 10000) (q : Fin 64), i = ix2 p q := ⟨i 0, i 1, eq_ix2 i⟩
  rw [val_main_v8_apply, v7_eq]
  exact sum_eq_mm x3 (Spec.mm x1 x4) p q (lidx_main_v8 (ix2 p q)) (ridx_main_v8 (ix2 p q))
    (fun l => funext fun a => Fin.ext (by match a with | ⟨0, _⟩ => rfl | ⟨1, _⟩ => rfl))
    (fun l => funext fun a => Fin.ext (by match a with | ⟨0, _⟩ => rfl | ⟨1, _⟩ => rfl))

theorem v9_eq (x1 : Spec.Mat 10000 128) (x3 : Spec.Mat 10000 10000) (x4 : Spec.Mat 128 64) :
    val_main_v9 (F := Ideal) x1 x3 x4 = Spec.relu (Spec.mm x3 (Spec.mm x1 x4)) := by
  funext i
  rw [val_main_v9_apply, val_main_call1_v0_apply, val_main_call1_cst_apply, v8_eq, Spec.relu_apply]
  exact max_zero_word _

theorem v10_eq (x1 : Spec.Mat 10000 128) (x3 : Spec.Mat 10000 10000) (x4 : Spec.Mat 128 64) (x5 : Spec.Mat 64 32) :
    val_main_v10 (F := Ideal) x1 x3 x4 x5 = Spec.mm (Spec.relu (Spec.mm x3 (Spec.mm x1 x4))) x5 := by
  funext i
  obtain ⟨p, q, rfl⟩ : ∃ (p : Fin 10000) (q : Fin 32), i = ix2 p q := ⟨i 0, i 1, eq_ix2 i⟩
  rw [val_main_v10_apply, v9_eq]
  exact sum_eq_mm (Spec.relu (Spec.mm x3 (Spec.mm x1 x4))) x5 p q (lidx_main_v10 (ix2 p q)) (ridx_main_v10 (ix2 p q))
    (fun l => funext fun a => Fin.ext (by match a with | ⟨0, _⟩ => rfl | ⟨1, _⟩ => rfl))
    (fun l => funext fun a => Fin.ext (by match a with | ⟨0, _⟩ => rfl | ⟨1, _⟩ => rfl))

/-- The second side's head with the first second-layer weight. -/
theorem v11_eq (x1 : Spec.Mat 10000 128) (x3 : Spec.Mat 10000 10000) (x4 : Spec.Mat 128 64) (x5 : Spec.Mat 64 32) :
    val_main_v11 (F := Ideal) x1 x3 x4 x5 = Spec.head x3 x1 x4 x5 := by
  unfold Spec.head
  funext i
  obtain ⟨p, q, rfl⟩ : ∃ (p : Fin 10000) (q : Fin 32), i = ix2 p q := ⟨i 0, i 1, eq_ix2 i⟩
  rw [val_main_v11_apply, v10_eq]
  exact sum_eq_mm x3 (Spec.mm (Spec.relu (Spec.mm x3 (Spec.mm x1 x4))) x5) p q
    (lidx_main_v11 (ix2 p q)) (ridx_main_v11 (ix2 p q))
    (fun l => funext fun a => Fin.ext (by match a with | ⟨0, _⟩ => rfl | ⟨1, _⟩ => rfl))
    (fun l => funext fun a => Fin.ext (by match a with | ⟨0, _⟩ => rfl | ⟨1, _⟩ => rfl))

theorem v12_eq (x1 : Spec.Mat 10000 128) (x3 : Spec.Mat 10000 10000) (x4 : Spec.Mat 128 64) (x6 : Spec.Mat 64 32) :
    val_main_v12 (F := Ideal) x1 x3 x4 x6 = Spec.mm (Spec.relu (Spec.mm x3 (Spec.mm x1 x4))) x6 := by
  funext i
  obtain ⟨p, q, rfl⟩ : ∃ (p : Fin 10000) (q : Fin 32), i = ix2 p q := ⟨i 0, i 1, eq_ix2 i⟩
  rw [val_main_v12_apply, v9_eq]
  exact sum_eq_mm (Spec.relu (Spec.mm x3 (Spec.mm x1 x4))) x6 p q (lidx_main_v12 (ix2 p q)) (ridx_main_v12 (ix2 p q))
    (fun l => funext fun a => Fin.ext (by match a with | ⟨0, _⟩ => rfl | ⟨1, _⟩ => rfl))
    (fun l => funext fun a => Fin.ext (by match a with | ⟨0, _⟩ => rfl | ⟨1, _⟩ => rfl))

/-- The second side's head with the second second-layer weight. -/
theorem v13_eq (x1 : Spec.Mat 10000 128) (x3 : Spec.Mat 10000 10000) (x4 : Spec.Mat 128 64) (x6 : Spec.Mat 64 32) :
    val_main_v13 (F := Ideal) x1 x3 x4 x6 = Spec.head x3 x1 x4 x6 := by
  unfold Spec.head
  funext i
  obtain ⟨p, q, rfl⟩ : ∃ (p : Fin 10000) (q : Fin 32), i = ix2 p q := ⟨i 0, i 1, eq_ix2 i⟩
  rw [val_main_v13_apply, v12_eq]
  exact sum_eq_mm x3 (Spec.mm (Spec.relu (Spec.mm x3 (Spec.mm x1 x4))) x6) p q
    (lidx_main_v13 (ix2 p q)) (ridx_main_v13 (ix2 p q))
    (fun l => funext fun a => Fin.ext (by match a with | ⟨0, _⟩ => rfl | ⟨1, _⟩ => rfl))
    (fun l => funext fun a => Fin.ext (by match a with | ⟨0, _⟩ => rfl | ⟨1, _⟩ => rfl))

/-! ### The decoder -/

/-- The layout stage reads the second side's first head at `(q, p)`: it is the transpose. -/
theorem v14_eq (x1 : Spec.Mat 10000 128) (x3 : Spec.Mat 10000 10000) (x4 : Spec.Mat 128 64) (x5 : Spec.Mat 64 32) :
    val_main_v14 (F := Ideal) x1 x3 x4 x5 = Spec.tr (Spec.head x3 x1 x4 x5) := by
  funext i
  obtain ⟨p, q, rfl⟩ : ∃ (p : Fin 32) (q : Fin 10000), i = ix2 p q := ⟨i 0, i 1, eq_ix2 i⟩
  rw [val_main_v14_apply, v11_eq, Spec.tr_apply]
  exact congrArg (Spec.head x3 x1 x4 x5)
    (funext fun a => Fin.ext (by match a with | ⟨0, _⟩ => rfl | ⟨1, _⟩ => rfl))

/-- The last stage is the inner-product decoder of the two first heads. -/
theorem v15_eq (x0 x1 : Spec.Mat 10000 128) (x2 x3 : Spec.Mat 10000 10000) (x4 : Spec.Mat 128 64) (x5 : Spec.Mat 64 32) :
    val_main_v15 (F := Ideal) x0 x1 x2 x3 x4 x5 = Spec.recon (Spec.head x2 x0 x4 x5) (Spec.head x3 x1 x4 x5) := by
  unfold Spec.recon
  funext i
  obtain ⟨p, q, rfl⟩ : ∃ (p : Fin 10000) (q : Fin 10000), i = ix2 p q := ⟨i 0, i 1, eq_ix2 i⟩
  rw [val_main_v15_apply, v4_eq, v14_eq]
  exact sum_eq_mm (Spec.head x2 x0 x4 x5) (Spec.tr (Spec.head x3 x1 x4 x5)) p q
    (lidx_main_v15 (ix2 p q)) (ridx_main_v15 (ix2 p q))
    (fun l => funext fun a => Fin.ext (by match a with | ⟨0, _⟩ => rfl | ⟨1, _⟩ => rfl))
    (fun l => funext fun a => Fin.ext (by match a with | ⟨0, _⟩ => rfl | ⟨1, _⟩ => rfl))

end Cert.ReferenceIdeal.RefIs

end
-- ==== Proof.lean ====
/-
  A two-sided graph autoencoder in evaluation mode, against its plain reference, over the extended reals.

  Per side, with A the 10000 x 10000 adjacency, X the 10000 x 128 features and W1, W2, W3 the weights, the reference
  computes the hidden layer H = relu (A · (X · W1)), the mean head A · (H · W2) and the log-variance head A · (H · W3);
  the reconstruction is the first side's mean head times the transpose of the second side's.  The kernel computes
  X · W1 in one block, then H · [W2 | W3] row block by row block (400 rows of A at a time against the whole support),
  then A · (H · [W2 | W3]) row block by row block, cuts that 64-column array into its two 32-column halves, and forms
  the reconstruction row block by row block from the two mean heads after narrowing their float format, which over
  the extended reals changes nothing.

  The two programs agree index by index with no appeal to finiteness: a row block of a product is the matching rows
  of the product (every contraction runs over its whole axis inside one block, so no sum is regrouped), and a column
  of [W2 | W3] is a column of W2 or of W3, so each half of the fused array is the matching head, term by term.  The
  matrix product, relu, transpose, halves and the side-by-side join are stated once in `Spec`; `Chain` reads each of
  the kernel's result arrays back through the run's boundaries to a `Spec` function of the launch arrays, `RefIs`
  reads the reference's stages as the same functions.
-/
import proofs.«141607_g53214644798189_cont_9to1_m_710_5_alg».proof.Defs
import proofs.«141607_g53214644798189_cont_9to1_m_710_5_alg».proof.Proof.Gen.Kernel
import proofs.«141607_g53214644798189_cont_9to1_m_710_5_alg».proof.Proof.Gen.Kernel.Skeleton
import proofs.«141607_g53214644798189_cont_9to1_m_710_5_alg».proof.Proof.Gen.Kernel.Launch
import proofs.«141607_g53214644798189_cont_9to1_m_710_5_alg».proof.Proof.Gen.Kernel.Points
import proofs.«141607_g53214644798189_cont_9to1_m_710_5_alg».proof.Proof.Gen.Kernel.Frame
import proofs.«141607_g53214644798189_cont_9to1_m_710_5_alg».proof.Proof.Gen.KernelIdeal
import proofs.«141607_g53214644798189_cont_9to1_m_710_5_alg».proof.Proof.Gen.KernelIdeal.Skeleton
import proofs.«141607_g53214644798189_cont_9to1_m_710_5_alg».proof.Proof.Gen.KernelIdeal.Launch
import proofs.«141607_g53214644798189_cont_9to1_m_710_5_alg».proof.Proof.Gen.KernelIdeal.Points
import proofs.«141607_g53214644798189_cont_9to1_m_710_5_alg».proof.Proof.Gen.KernelIdeal.Frame
import proofs.«141607_g53214644798189_cont_9to1_m_710_5_alg».proof.Proof.Gen.ReferenceIdeal
import proofs.«141607_g53214644798189_cont_9to1_m_710_5_alg».proof.Proof.Gen.Pre_finite_inputs
import proofs.«141607_g53214644798189_cont_9to1_m_710_5_alg».proof.Proof.Gen.ReferenceIdeal.Run
import proofs.«141607_g53214644798189_cont_9to1_m_710_5_alg».proof.Proof.Gen.ReferenceIdeal.Read
import proofs.«141607_g53214644798189_cont_9to1_m_710_5_alg».proof.Proof.Chain
import proofs.«141607_g53214644798189_cont_9to1_m_710_5_alg».proof.Proof.RefIs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run with the seven results dropped. -/
theorem frame_ri : Cert.frame_ReferenceIdeal := fun m ρ _ =>
  (θ_run Cert.ReferenceIdeal.defs _ _).mono (fun _ h c => (h c).2.2.2.2.2.2.2)
    (Cert.ReferenceIdeal.Value.run (F := Ideal) m ρ)

/-- The ideal reading rewrote no operation. -/
theorem preserves : Cert.preserves_Kernel_KernelIdeal := trivial

open Cert.KernelIdeal.Chain in
/-- From memories that agree on the arguments both programs end with the two mean heads, the reconstruction, the two
    mean heads again and the two log-variance heads, each the same function of the launch arrays. -/
theorem algebraic : Cert.algebraic_KernelIdeal_ReferenceIdeal := by
  intro m ρ m' ρ' _ hagree
  refine ⟨fun c => Spec.head (aO m c) (xO m c) (w1 m c) (w2 m c),
    fun c => Spec.head (aI m c) (xI m c) (w1 m c) (w2 m c),
    fun c => Spec.recon (Spec.head (aO m c) (xO m c) (w1 m c) (w2 m c)) (Spec.head (aI m c) (xI m c) (w1 m c) (w2 m c)),
    fun c => Spec.head (aO m c) (xO m c) (w1 m c) (w2 m c),
    fun c => Spec.head (aI m c) (xI m c) (w1 m c) (w2 m c),
    fun c => Spec.head (aO m c) (xO m c) (w1 m c) (w3 m c),
    fun c => Spec.head (aI m c) (xI m c) (w1 m c) (w3 m c), ?_, ?_⟩
  · refine (θ_run Cert.KernelIdeal.defs _ _).mono (fun r h c => ?_) (Cert.KernelIdeal.Vals.run (F := Ideal) m ρ)
    obtain ⟨h7, h9, h14, h8, h10, hargs⟩ := h c
    exact ⟨h7.trans (s9_v7 m ρ c), h9.trans (s9_v9 m ρ c), h14.trans (s9_v14 m ρ c), h7.trans (s9_v7 m ρ c),
      h9.trans (s9_v9 m ρ c), h8.trans (s9_v8 m ρ c), h10.trans (s9_v10 m ρ c), hargs⟩
  · refine (θ_run Cert.ReferenceIdeal.defs _ _).mono (fun r h c => ?_) (Cert.ReferenceIdeal.Value.run (F := Ideal) m' ρ')
    obtain ⟨e4, e11, e15, -, -, e6, e13, hargs⟩ := h c
    obtain ⟨a0, a1, a2, a3, a4, a5, a6⟩ := hagree c
    refine ⟨e4.trans ?_, e11.trans ?_, e15.trans ?_, e4.trans ?_, e11.trans ?_, e6.trans ?_, e13.trans ?_, hargs⟩
    · exact ((Cert.ReferenceIdeal.Read.val_main_v4_eq _ _ _ _).trans (Cert.ReferenceIdeal.RefIs.v4_eq _ _ _ _)).trans
        (by rw [a0, a2, a4, a5])
    · exact ((Cert.ReferenceIdeal.Read.val_main_v11_eq _ _ _ _).trans (Cert.ReferenceIdeal.RefIs.v11_eq _ _ _ _)).trans
        (by rw [a1, a3, a4, a5])
    · exact ((Cert.ReferenceIdeal.Read.val_main_v15_eq _ _ _ _ _ _).trans (Cert.ReferenceIdeal.RefIs.v15_eq _ _ _ _ _ _)).trans
        (by rw [a0, a1, a2, a3, a4, a5])
    · exact ((Cert.ReferenceIdeal.Read.val_main_v4_eq _ _ _ _).trans (Cert.ReferenceIdeal.RefIs.v4_eq _ _ _ _)).trans
        (by rw [a0, a2, a4, a5])
    · exact ((Cert.ReferenceIdeal.Read.val_main_v11_eq _ _ _ _).trans (Cert.ReferenceIdeal.RefIs.v11_eq _ _ _ _)).trans
        (by rw [a1, a3, a4, a5])
    · exact ((Cert.ReferenceIdeal.Read.val_main_v6_eq _ _ _ _).trans (Cert.ReferenceIdeal.RefIs.v6_eq _ _ _ _)).trans
        (by rw [a0, a2, a4, a6])
    · exact ((Cert.ReferenceIdeal.Read.val_main_v13_eq _ _ _ _).trans (Cert.ReferenceIdeal.RefIs.v13_eq _ _ _ _)).trans
        (by rw [a1, a3, a4, a6])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
